-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x32 : Shape := ⟨2, ![128, 32]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x32 : S_.BroadcastsInDim S128x32 (![] : Fin 0 → Fin S128x32.rank)
  reducesTo_S128x32_S_d0_1 : S128x32.ReducesTo [0, 1] S_

variable [Facts]

def fn {F : FTy → Type} [FloatOps F] (main_arg0 : FVec F S10000x128 .f32) (main_arg1 : FVec F S10000x10000 .f32) (main_arg2 : FVec F S128x32 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x32 .f32 := Host.absf main_arg2
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  main_v13
-- ==== Kernel.lean ====
abbrev S10000x128 : Shape := ⟨2, ![10000, 128]⟩
abbrev S10000x10000 : Shape := ⟨2, ![10000, 10000]⟩
abbrev S128x32 : Shape := ⟨2, ![128, 32]⟩
abbrev S32x128 : Shape := ⟨2, ![32, 128]⟩
abbrev S32x10000 : Shape := ⟨2, ![32, 10000]⟩
abbrev S400x10000 : Shape := ⟨2, ![400, 10000]⟩
abbrev S10000x32 : Shape := ⟨2, ![10000, 32]⟩
abbrev S400x32 : Shape := ⟨2, ![400, 32]⟩

abbrev nBuf : Space → Nat
  | .hbm => 6
  | .vmem => 7
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x32, .f32⟩
  | .hbm, ⟨3, _⟩ => ⟨S32x128, .f32⟩
  | .hbm, ⟨4, _⟩ => ⟨S32x10000, .f32⟩
  | .hbm, ⟨5, _⟩ => ⟨S10000x32, .f32⟩
  | .local _ .vmem, ⟨0, _⟩ => ⟨S10000x128, .f32⟩
  | .local _ .vmem, ⟨1, _⟩ => ⟨S32x128, .f32⟩
  | .local _ .vmem, ⟨2, _⟩ => ⟨S400x10000, .f32⟩
  | .local _ .vmem, ⟨3, _⟩ => ⟨S400x10000, .f32⟩
  | .local _ .vmem, ⟨4, _⟩ => ⟨S32x10000, .f32⟩
  | .local _ .vmem, ⟨5, _⟩ => ⟨S10000x32, .bf16⟩
  | .local _ .vmem, ⟨6, _⟩ => ⟨S10000x32, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c400_i32 : BitVec 32 := 400#32
  let v8 : BitVec 32 := Scalar.muli arg0 c400_i32
  let v9 : Index := Scalar.indexCast v8
  let c0_5 : Index := 0#32
  ![v9.toNat, 0]
def k0_cond2 (i : grid0.Coords) : BitVec 1 :=
  let arg0 : BitVec 32 := BitVec.ofNat 32 (i 0).val
  let c24_i32 : BitVec 32 := 24#32
  let v13 : BitVec 1 := Scalar.cmpi .eq arg0 c24_i32
  let v14 : BitVec 32 := Scalar.extui v13
  let c0_i32_6 : BitVec 32 := 0#32
  let v15 : BitVec 1 := Scalar.cmpi .ne v14 c0_i32_6
  v15

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x10000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  transposes_S128x32_S32x128_1_0 : S128x32.Transposes [1, 0] S32x128
  inb_S10000x128_S10000x128_0_0 : ∀ a, (![0, 0] : Fin 2 → Nat) a + S10000x128.size a ≤ S10000x128.size a
  h_S10000x128 : 0 < S10000x128.numel
  inb_S32x128_S32x128_0_0 : ∀ a, (![0, 0] : Fin 2 → Nat) a + S32x128.size a ≤ S32x128.size a
  h_S32x128 : 0 < S32x128.numel
  shapeCasts_S32x128_S32x128 : S32x128.ShapeCasts S32x128
  bitsLt_bf16_f32 : FTy.bits .bf16 < FTy.bits .f32
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  packedbf16_S10000x32_S10000x32_0_0 : (Rect.unit (s := S10000x32) ![0, 0] S10000x32.size inb_S10000x32_S10000x32_0_0).PackedRows (EltTy.packing .bf16)
  inb_S400x10000_S400x10000_0_0 : ∀ a, (![0, 0] : Fin 2 → Nat) a + S400x10000.size a ≤ S400x10000.size a
  h_S400x10000 : 0 < S400x10000.numel
  h_S400x32 : 0 < S400x32.numel
  shapeCasts_S400x32_S400x32 : S400x32.ShapeCasts S400x32
  transposes_S10000x32_p1_0_S32x10000 : S10000x32.Transposes [1, 0] S32x10000
  inb_S32x10000_S32x10000_0_0 : ∀ a, (![0, 0] : Fin 2 → Nat) a + S32x10000.size a ≤ S32x10000.size a
  h_S32x10000 : 0 < S32x10000.numel
  transposes_S32x10000_S10000x32_1_0 : S32x10000.Transposes [1, 0] S10000x32
  dot_S10000x128_S32x128_S10000x32_1_1_0_0_n_n_wf : DotDims.WF S10000x128 S32x128 S10000x32 [1] [1] [0] [0] [] []
  dot_S400x10000_S10000x32_S400x32_1_0_0_1_n_n_wf : DotDims.WF S400x10000 S10000x32 S400x32 [1] [0] [0] [1] [] []
  hrank0 : 0 < grid0.rank
  k0_off1_inb : ∀ i : grid0.Coords, ∀ a, (k0_off1 i) a + S400x32.size a ≤ S10000x32.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S32x128.size a
  hwx0_1 : ∀ i : grid0.Coords, EltTy.bits .f32 = 32 ∨ (Rect.block (s := S32x128) S32x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x10000.size a ≤ S10000x10000.size a
  hwx0_2 : ∀ i : grid0.Coords, EltTy.bits .f32 = 32 ∨ (Rect.block (s := S10000x10000) S400x10000.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x10000.size a ≤ S32x10000.size a
  hwx0_3 : ∀ i : grid0.Coords, EltTy.bits .f32 = 32 ∨ (Rect.block (s := S32x10000) S32x10000.size (cc0_transform_3 i) (hinb0_3 i)).WholeWords (EltTy.packing .f32)

variable [Facts₀]

def dot_S10000x128_S32x128_S10000x32_1_1_0_0_n_n : DotDims S10000x128 S32x128 S10000x32 where
  lhsContracting := [1]
  rhsContracting := [1]
  lhsNonContracting := [0]
  rhsNonContracting := [0]
  lhsBatch := []
  rhsBatch := []
  wf := dot_S10000x128_S32x128_S10000x32_1_1_0_0_n_n_wf
def dot_S400x10000_S10000x32_S400x32_1_0_0_1_n_n : DotDims S400x10000 S10000x32 S400x32 where
  lhsContracting := [1]
  rhsContracting := [0]
  lhsNonContracting := [0]
  rhsNonContracting := [1]
  lhsBatch := []
  rhsBatch := []
  wf := dot_S400x10000_S10000x32_S400x32_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S32x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S400x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S32x10000.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x32 : Shape := ⟨2, ![128, 32]⟩
abbrev S10000x32 : Shape := ⟨2, ![10000, 32]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x32, .f32⟩
  | .hbm, ⟨3, _⟩ => ⟨S10000x32, .f32⟩
  | .hbm, ⟨4, _⟩ => ⟨S10000x32, .f32⟩
  | .hbm, ⟨5, _⟩ => ⟨S_, .f32⟩
  | .hbm, ⟨6, _⟩ => ⟨S10000x32, .f32⟩
  | .hbm, ⟨7, _⟩ => ⟨S10000x32, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩

abbrev nD : Nat := 1
abbrev τ : Topo := Topo.v7x

variable {F : FTy → Type} [FloatOps F]

class Facts₀ : Prop where
  bcast_S_S10000x32 : S_.BroadcastsInDim S10000x32 (![] : Fin 0 → Fin S10000x32.rank)
  dot_S10000x128_S128x32_S10000x32_1_0_0_1_n_n_wf : DotDims.WF S10000x128 S128x32 S10000x32 [1] [0] [0] [1] [] []
  dot_S10000x10000_S10000x32_S10000x32_1_0_0_1_n_n_wf : DotDims.WF S10000x10000 S10000x32 S10000x32 [1] [0] [0] [1] [] []

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S10000x10000_S10000x32_S10000x32_1_0_0_1_n_n : DotDims S10000x10000 S10000x32 S10000x32 where
  lhsContracting := [1]
  rhsContracting := [0]
  lhsNonContracting := [0]
  rhsNonContracting := [1]
  lhsBatch := []
  rhsBatch := []
  wf := dot_S10000x10000_S10000x32_S10000x32_1_0_0_1_n_n_wf

class Facts : Prop extends Facts₀ where

variable [Facts]
-- ==== Proof.BitsContents.lean ====
/-
  What the kernel's two scratch arrays and its output block hold, point by point, as functions of the input blocks.

  The grid has 25 points. At the first point the kernel computes the projected features `xw = x · wtᵀ` (stored in a
  narrower format) once and keeps them; at point `t` it computes the slab of 400 output rows `400 t … 400 t + 399`,
  `relu (adj_t · xw)`, from the `t`-th block of 400 adjacency rows, and stores it into those rows of an accumulator
  array, whose other rows it leaves alone; at the last point it transposes the accumulator into the output block.
  So after point `n` the rows below `400 (n + 1)` of the accumulator are determined (`Filled`) and the others are
  whatever they were; after the last point every row is determined and the accumulator is `acc`.
-/
import proofs.«119223_g89721866813830_cont_sun_m_1045_24_alg».proof.Proof.Gen.Kernel.Frame
import proofs.«119223_g89721866813830_cont_sun_m_1045_24_alg».proof.Proof.Gen.Kernel.Skeleton
import Idealize.ShloMosaic.Lib.ValueIdx

noncomputable section

namespace Cert.Kernel.Body

open Idealize.ShloMosaic Idealize.ShloMosaic.ValueIdx Idealize.SL.Sem
open Cert.Kernel Cert.Kernel.Gen

variable {F : FTy → Type} [FloatOps F]

variable (m : (ℓ : Loc nD τ sig) → Buf (Elt F) ℓ)

theorem N_eq : cfg0.N = 25 := N_0

/-- The grid's first point. -/
def t0 : Fin cfg0.N := ⟨0, by rw [N_eq]; omega⟩

/-- The input blocks at a point, at their literal shapes: all of `x`, all of `wt`, and 400 rows of `adj`. -/
abbrev xblk (c : Dev nD) (t : Fin cfg0.N) : Vec F S10000x128 .f32 := iblk m c 0 t
abbrev wtblk (c : Dev nD) (t : Fin cfg0.N) : Vec F S32x128 .f32 := iblk m c 1 t
abbrev adjblk (c : Dev nD) (t : Fin cfg0.N) : Vec F S400x10000 .f32 := iblk m c 2 t

/-- The projected features the first point computes and every later point reads. -/
def xw (c : Dev nD) : Vec F S10000x32 .bf16 := k0_pay1 (xblk m c t0) (wtblk m c t0)

/-- The 400 output rows point `t` computes. -/
def slab (c : Dev nD) (t : Fin cfg0.N) : Vec F S400x32 .f32 := k0_pay2 (adjblk m c t) (xw m c)

theorem block_lt (y : S10000x32.Idx) : (y 0).val / 400 < cfg0.N := by
  rw [N_eq]; have := idx2_lt0 y; omega

/-- The accumulator after the last point: row `r` is row `r % 400` of the slab of point `r / 400`. -/
def acc (c : Dev nD) : Vec F S10000x32 .f32 :=
  fun y => slab m c ⟨(y 0).val / 400, block_lt y⟩ (ix2 (⟨(y 0).val % 400, Nat.mod_lt _ (by omega)⟩ : Fin 400) (⟨(y 1).val, idx2_lt1 y⟩ : Fin 32))

/-- The output block the last point stores: the accumulator transposed. -/
def outT (c : Dev nD) : Vec F S32x10000 .f32 := k0_pay3 (acc m c)

/-- The rows of the slabs of points `0 … n` of an accumulator array `d` hold those slabs. -/
def Filled (c : Dev nD) (n : ℕ) (d : Vec F S10000x32 .f32) : Prop :=
  ∀ t : Fin cfg0.N, t.val ≤ n → ∀ (r : Fin 400) (q : Fin 32) (h : 400 * t.val + r.val < 10000),
    d (ix2 (⟨400 * t.val + r.val, h⟩ : Fin 10000) q) = slab m c t (ix2 r q)

/-- Once the slabs of all 25 points are in, the accumulator is `acc`. -/
theorem eq_acc_of_filled (c : Dev nD) (d : Vec F S10000x32 .f32) (h : Filled m c 24 d) : d = acc m c := by
  funext y
  obtain ⟨p, q, rfl⟩ : ∃ (p : Fin 10000) (q : Fin 32), y = ix2 p q := ⟨y 0, y 1, eq_ix2 y⟩
  have hp := p.isLt
  have hdiv : p.val / 400 < cfg0.N := by rw [N_eq]; omega
  have hle : (⟨p.val / 400, hdiv⟩ : Fin cfg0.N).val ≤ 24 := by show p.val / 400 ≤ 24; omega
  have hrow : 400 * (p.val / 400) + p.val % 400 < 10000 := by rw [Nat.div_add_mod]; exact hp
  have := h ⟨p.val / 400, hdiv⟩ hle ⟨p.val % 400, Nat.mod_lt _ (by omega)⟩ q hrow
  have hidx : (ix2 (⟨400 * (p.val / 400) + p.val % 400, hrow⟩ : Fin 10000) q : S10000x32.Idx) = ix2 p q := by
    congr 1; exact Fin.ext (Nat.div_add_mod _ _)
  rw [hidx] at this
  exact this

end Cert.Kernel.Body

end
-- ==== Proof.BitsCases.lean ====
/-
  The kernel's body run once, in each of the three situations the grid meets.

  The body branches twice on the grid coordinate: "is this the first point" (then it computes the projected features
  and stores them whole into the first scratch array) and "is this the last point" (then it transposes the whole
  accumulator into the output block). In between, at every point, it multiplies the point's 400 adjacency rows with
  the projected features, clips at zero, and stores the 400 × 32 slab into the point's rows of the accumulator.
  Each run below says exactly what every buffer holds afterwards, as a function of what it held before: the inputs
  and, away from the last point, the output block are untouched; the accumulator is the old one with the slab put
  in (`put`); at the last point the output block is the transpose of that.
-/
import proofs.«119223_g89721866813830_cont_sun_m_1045_24_alg».proof.Proof.Gen.Kernel.Frame
import proofs.«119223_g89721866813830_cont_sun_m_1045_24_alg».proof.Proof.Gen.Kernel.Skeleton
import Idealize.ShloMosaic.Lib.Pipeline.Value

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

/-- "This is the grid's first point", as the body computes it from the coordinate. -/
abbrev isFirst (i : grid0.Coords) : Prop := (Scalar.cmpi .ne (Scalar.extui (Scalar.cmpi .eq (BitVec.ofNat 32 (i 0).val) 0#32)) 0#32) = 1#1
/-- "This is the grid's last point", as the body computes it from the coordinate. -/
abbrev isLast (i : grid0.Coords) : Prop := k0_cond2 i = 1#1

/-- The accumulator contents `d` with the slab `p` stored over the 400 rows of point `i`, read back through the
    accumulator's own memref: what the buffer holds after the point's store. -/
def put (arg6 : Memref sig .tc .vmem S10000x32 .f32) (harg6 : arg6.IsWhole) (i : grid0.Coords) (d : Vec F S10000x32 .f32) (p : Vec F S400x32 .f32) :
    Vec F S10000x32 .f32 :=
  arg6.view.read (Elt F) (arg6.view.writes (Elt F) (harg6.unread d)
    [(⟨Rect.unit (s := S10000x32) (k0_off1 i) S400x32.size (k0_off1_inb i), p⟩ : View.Piece (Elt F) S10000x32 .f32)])

theorem zero2 : (![0, 0] : Fin 2 → ℕ) = fun _ => 0 := by funext a; fin_cases a <;> rfl

/-- One store through the whole-shape rectangle leaves its payload, whatever was there. -/
theorem read_whole_store {sp : Space} {S : Shape} {e : EltTy} (v : View sig .tc sp S e) (f : v.ty.Contents (Elt F))
    {off : Fin S.rank → ℕ} (h : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon v f _ (fun y => ⟨_, List.mem_singleton_self _, View.mem_set_unit_zero h inb y⟩)]
  exact View.canon_unit_zero h inb w

set_option maxHeartbeats 1000000 in
/-- A point that is neither first nor last: only the accumulator changes. -/
theorem run_mid (c : Dev nD) (i : grid0.Coords) (arg1 : Memref sig .tc .vmem S10000x128 .f32) (harg1 : arg1.IsWhole) (arg2 : Memref sig .tc .vmem S32x128 .f32) (harg2 : arg2.IsWhole) (arg3 : Memref sig .tc .vmem S400x10000 .f32) (harg3 : arg3.IsWhole) (arg4 : Memref sig .tc .vmem S32x10000 .f32) (harg4 : arg4.IsWhole) (arg5 : Memref sig .tc .vmem S10000x32 .bf16) (harg5 : arg5.IsWhole) (arg6 : Memref sig .tc .vmem S10000x32 .f32) (harg6 : arg6.IsWhole) (hc0 : ¬isFirst i) (hc1 : ¬isLast i)
    (x0 : Vec F S10000x128 .f32) (x1 : Vec F S32x128 .f32) (x2 : Vec F S400x10000 .f32) (d4 : Vec F S32x10000 .f32) (xs : Vec F S10000x32 .bf16) (d6 : Vec F S10000x32 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare d4 ∗ owns (c : Thread nD τ) arg5 fullShare xs ∗ owns (c : Thread nD τ) arg6 fullShare d6
        ∗ (iprop(owns (c : Thread nD τ) arg1 fullShare x0 ∗ owns (c : Thread nD τ) arg2 fullShare x1 ∗ owns (c : Thread nD τ) arg3 fullShare x2 ∗ owns (c : Thread nD τ) arg4 fullShare d4 ∗ owns (c : Thread nD τ) arg5 fullShare xs
            ∗ owns (c : Thread nD τ) arg6 fullShare (put arg6 harg6 i d6 (k0_pay2 x2 xs))) -∗ K ⟨⟩))
      ⊢ wp frame (wpE (defs₀ (F := F)) Variants.none c none) E (cc0__fused_kernel i arg1 harg1 arg2 harg2 arg3 harg3 arg4 harg4 arg5 harg5 arg6 harg6) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  obtain rfl := harg1.eq_unread hf0; obtain rfl := harg2.eq_unread hf1; obtain rfl := harg3.eq_unread hf2
  obtain rfl := harg4.eq_unread hf3; obtain rfl := harg5.eq_unread hfs0; obtain rfl := harg6.eq_unread hfs1
  sl_exec (disch := first | exact hc0 | exact hc1)
  sl_step
  sl_unfold_words
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [HS0]
  · iexists _; isplitr; · ipureintro; exact harg5.read_unread _
    iexact HS0
  iexists _; isplitr; swap; · iexact HS1
  ipureintro
  unfold put
  simp only [View.readAt_eq_ld, harg3.read_unread, harg5.read_unread, View.ld_unit_zero (S := S400x10000) zero2, View.ld_unit_zero (S := S10000x32) zero2]
  rfl

set_option maxHeartbeats 1000000 in
/-- The first point: the projected features are computed and kept, and the first slab goes into the accumulator. -/
theorem run_first (c : Dev nD) (i : grid0.Coords) (arg1 : Memref sig .tc .vmem S10000x128 .f32) (harg1 : arg1.IsWhole) (arg2 : Memref sig .tc .vmem S32x128 .f32) (harg2 : arg2.IsWhole) (arg3 : Memref sig .tc .vmem S400x10000 .f32) (harg3 : arg3.IsWhole) (arg4 : Memref sig .tc .vmem S32x10000 .f32) (harg4 : arg4.IsWhole) (arg5 : Memref sig .tc .vmem S10000x32 .bf16) (harg5 : arg5.IsWhole) (arg6 : Memref sig .tc .vmem S10000x32 .f32) (harg6 : arg6.IsWhole) (hc0 : isFirst i) (hc1 : ¬isLast i)
    (x0 : Vec F S10000x128 .f32) (x1 : Vec F S32x128 .f32) (x2 : Vec F S400x10000 .f32) (d4 : Vec F S32x10000 .f32) (d6 : Vec F S10000x32 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare d4 ∗ (∃ d, owns (c : Thread nD τ) arg5 fullShare d) ∗ owns (c : Thread nD τ) arg6 fullShare d6
        ∗ (iprop(owns (c : Thread nD τ) arg1 fullShare x0 ∗ owns (c : Thread nD τ) arg2 fullShare x1 ∗ owns (c : Thread nD τ) arg3 fullShare x2 ∗ owns (c : Thread nD τ) arg4 fullShare d4 ∗ owns (c : Thread nD τ) arg5 fullShare (k0_pay1 x0 x1)
            ∗ owns (c : Thread nD τ) arg6 fullShare (put arg6 harg6 i d6 (k0_pay2 x2 (k0_pay1 x0 x1)))) -∗ K ⟨⟩))
      ⊢ wp frame (wpE (defs₀ (F := F)) Variants.none c none) E (cc0__fused_kernel i arg1 harg1 arg2 harg2 arg3 harg3 arg4 harg4 arg5 harg5 arg6 harg6) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%ds0, %fs0, -, HS0⟩, ⟨%fs1, %hfs1, HS1⟩, Hk⟩
  obtain rfl := harg1.eq_unread hf0; obtain rfl := harg2.eq_unread hf1; obtain rfl := harg3.eq_unread hf2
  obtain rfl := harg4.eq_unread hf3; obtain rfl := harg6.eq_unread hfs1
  sl_exec (disch := first | exact hc0 | exact hc1)
  sl_step
  sl_unfold_words
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [HS0]
  · iexists _; isplitr; swap; · iexact HS0
    ipureintro
    simp only [View.readAt_eq_ld, harg1.read_unread, harg2.read_unread, View.ld_unit_zero (S := S10000x128) zero2, View.ld_unit_zero (S := S32x128) zero2]
    exact read_whole_store _ _ zero2 _ _
  iexists _; isplitr; swap; · iexact HS1
  ipureintro
  unfold put
  simp only [View.readAt_eq_ld, harg1.read_unread, harg2.read_unread, harg3.read_unread, View.ld_unit_zero (S := S10000x128) zero2,
    View.ld_unit_zero (S := S32x128) zero2, View.ld_unit_zero (S := S400x10000) zero2, View.readCov_unit_zero (S := S10000x32) _ zero2]
  rfl

set_option maxHeartbeats 1000000 in
/-- The last point: the last slab goes in, and the output block becomes the whole accumulator transposed. -/
theorem run_last (c : Dev nD) (i : grid0.Coords) (arg1 : Memref sig .tc .vmem S10000x128 .f32) (harg1 : arg1.IsWhole) (arg2 : Memref sig .tc .vmem S32x128 .f32) (harg2 : arg2.IsWhole) (arg3 : Memref sig .tc .vmem S400x10000 .f32) (harg3 : arg3.IsWhole) (arg4 : Memref sig .tc .vmem S32x10000 .f32) (harg4 : arg4.IsWhole) (arg5 : Memref sig .tc .vmem S10000x32 .bf16) (harg5 : arg5.IsWhole) (arg6 : Memref sig .tc .vmem S10000x32 .f32) (harg6 : arg6.IsWhole) (hc0 : ¬isFirst i) (hc1 : isLast i)
    (x0 : Vec F S10000x128 .f32) (x1 : Vec F S32x128 .f32) (x2 : Vec F S400x10000 .f32) (d4 : Vec F S32x10000 .f32) (xs : Vec F S10000x32 .bf16) (d6 : Vec F S10000x32 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare d4 ∗ owns (c : Thread nD τ) arg5 fullShare xs ∗ owns (c : Thread nD τ) arg6 fullShare d6
        ∗ (iprop(owns (c : Thread nD τ) arg1 fullShare x0 ∗ owns (c : Thread nD τ) arg2 fullShare x1 ∗ owns (c : Thread nD τ) arg3 fullShare x2 ∗ owns (c : Thread nD τ) arg4 fullShare (k0_pay3 (put arg6 harg6 i d6 (k0_pay2 x2 xs))) ∗ owns (c : Thread nD τ) arg5 fullShare xs
            ∗ owns (c : Thread nD τ) arg6 fullShare (put arg6 harg6 i d6 (k0_pay2 x2 xs))) -∗ K ⟨⟩))
      ⊢ wp frame (wpE (defs₀ (F := F)) Variants.none c none) E (cc0__fused_kernel i arg1 harg1 arg2 harg2 arg3 harg3 arg4 harg4 arg5 harg5 arg6 harg6) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  obtain rfl := harg1.eq_unread hf0; obtain rfl := harg2.eq_unread hf1; obtain rfl := harg3.eq_unread hf2
  obtain rfl := harg4.eq_unread hf3; obtain rfl := harg5.eq_unread hfs0; obtain rfl := harg6.eq_unread hfs1
  sl_exec (disch := first | exact hc0 | exact hc1)
  sl_step
  sl_unfold_words
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; swap; · iexact H3
    ipureintro
    rw [read_whole_store _ _ zero2]
    unfold put
    simp only [View.readAt_eq_ld, harg3.read_unread, harg5.read_unread, View.ld_unit_zero (S := S400x10000) zero2, View.ld_unit_zero (S := S10000x32) zero2]
    rfl
  isplitl [HS0]
  · iexists _; isplitr; · ipureintro; exact harg5.read_unread _
    iexact HS0
  iexists _; isplitr; swap; · iexact HS1
  ipureintro
  unfold put
  simp only [View.readAt_eq_ld, harg3.read_unread, harg5.read_unread, View.ld_unit_zero (S := S400x10000) zero2, View.ld_unit_zero (S := S10000x32) zero2]
  rfl

end Cert.Kernel.Body

end
-- ==== Proof.BitsFill.lean ====
/-
  Storing one point's slab advances what is known of the accumulator by one point.

  The slab of point `t` goes to rows `400 t … 400 t + 399` (the row offset the body computes from the coordinate is
  `400 t` at every point of the grid, by inspection of the 25 points). A row inside that range then reads the slab,
  a row outside it reads what the accumulator held before; so if the slabs of the points before `t` were in place,
  the slabs of the points up to `t` are.
-/
import proofs.«119223_g89721866813830_cont_sun_m_1045_24_alg».proof.Proof.BitsContents
import proofs.«119223_g89721866813830_cont_sun_m_1045_24_alg».proof.Proof.BitsCases
import Idealize.ShloMosaic.Lib.WritesUnit

noncomputable section

namespace Cert.Kernel.Body

open Idealize.ShloMosaic Idealize.ShloMosaic.ValueIdx Idealize.SL.Sem
open Cert.Kernel Cert.Kernel.Gen

variable {F : FTy → Type} [FloatOps F]

variable (m : (ℓ : Loc nD τ sig) → Buf (Elt F) ℓ)

/-- The slab's row offset at point `t` is `400 t`, its column offset `0`: the body's own arithmetic, at each of the 25 points. -/
theorem off_eq (t : Fin cfg0.N) : k0_off1 (grid0.coords t) = ![400 * t.val, 0] :=
  (by decide +kernel : ∀ t : Fin grid0.N, k0_off1 (grid0.coords t) = ![400 * t.val, 0]) t

/-- A row of point `t`'s range reads the slab just stored. -/
theorem put_apply_mem (arg6 : Memref sig .tc .vmem S10000x32 .f32) (harg6 : arg6.IsWhole) (t : Fin cfg0.N)
    (d : Vec F S10000x32 .f32) (p : Vec F S400x32 .f32) (r : Fin 400) (q : Fin 32) (h : 400 * t.val + r.val < 10000) :
    put arg6 harg6 (grid0.coords t) d p (ix2 (⟨400 * t.val + r.val, h⟩ : Fin 10000) q) = p (ix2 r q) := by
  unfold put
  exact View.read_writes_cons_rows_of_mem arg6.view _ (k0_off1_inb _) p [] (ix2 (⟨400 * t.val + r.val, h⟩ : Fin 10000) q) (ix2 r q)
    (off_eq t) rfl rfl

/-- A row outside point `t`'s range reads what the accumulator held. -/
theorem put_apply_not_mem (arg6 : Memref sig .tc .vmem S10000x32 .f32) (harg6 : arg6.IsWhole) (t : Fin cfg0.N)
    (d : Vec F S10000x32 .f32) (p : Vec F S400x32 .f32) (y : S10000x32.Idx)
    (h : (y 0).val < 400 * t.val ∨ 400 * t.val + 400 ≤ (y 0).val) :
    put arg6 harg6 (grid0.coords t) d p y = d y := by
  unfold put
  rw [View.read_writes_cons_rows_of_not_mem arg6.view _ (k0_off1_inb _) p [] y (off_eq t) rfl h, View.writes_nil, harg6.read_unread]

/-- With the slabs of the earlier points in place, storing point `t`'s slab puts the slabs of points `0 … t` in place. -/
theorem filled_put (c : Dev nD) (arg6 : Memref sig .tc .vmem S10000x32 .f32) (harg6 : arg6.IsWhole) (t : Fin cfg0.N)
    (d : Vec F S10000x32 .f32) (hprev : ∀ n, t.val = n + 1 → Filled m c n d) :
    Filled m c t.val (put arg6 harg6 (grid0.coords t) d (slab m c t)) := by
  intro t' ht' r q h
  by_cases he : t' = t
  · subst he
    exact put_apply_mem arg6 harg6 t' d (slab m c t') r q h
  · have hlt : t'.val < t.val := lt_of_le_of_ne ht' (fun hv => he (Fin.ext hv))
    have hr := r.isLt
    rw [put_apply_not_mem arg6 harg6 t d (slab m c t) _ (Or.inl (by show 400 * t'.val + r.val < 400 * t.val; omega))]
    exact hprev (t.val - 1) (by omega) t' (by omega) r q h

end Cert.Kernel.Body

end
-- ==== Proof.BitsBody.lean ====
/-
  The region's proof data, the body at every point, and the run of the whole program.

  Between points the region keeps: the projected features in the first scratch array (from the first point on),
  and the accumulator at SOME contents of which the slabs of the points already run are known (`Filled`); the rows
  of later points hold whatever the buffer held at entry, which nothing reads before it is overwritten. The
  output block is written once, at the last point, with the whole accumulator transposed (`outT`), and is written
  back to its array once, after that point; at every other point the body leaves the block as it found it.
  At a point the body is one of the three runs (first, middle, last), chosen by the point's number.
-/
import proofs.«119223_g89721866813830_cont_sun_m_1045_24_alg».proof.Proof.BitsContents
import proofs.«119223_g89721866813830_cont_sun_m_1045_24_alg».proof.Proof.BitsCases
import proofs.«119223_g89721866813830_cont_sun_m_1045_24_alg».proof.Proof.BitsFill
import Idealize.ShloMosaic.Lib.Pipeline.Kit

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

variable (m : (ℓ : Loc nD τ sig) → Buf (Elt F) ℓ) (ρ : Dev nD → PrngReg)

/-! ## The memrefs the body is called with, and where the grid's branches and idle points are -/

abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S32x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S400x10000 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S32x10000 .f32 := win0_3.stage (cfg0.slots t 3)
abbrev hs3 (t : Fin cfg0.N) : (ms3 t).IsWhole := hstage0_3 ((cfg0.slots t 3).cast nbuf0_3)
/-- The two scratch arrays: the projected features, and the accumulator. -/
abbrev sc0 : Memref sig .tc .vmem S10000x32 .bf16 := Memref.whole cc0_scratch0
abbrev sc1 : Memref sig .tc .vmem S10000x32 .f32 := Memref.whole cc0_scratch1

/-- The first branch is taken at point 0 only, the second at point 24 only: by inspection of the 25 points. -/
theorem first_iff : ∀ t : Fin cfg0.N, isFirst (grid0.coords t) ↔ t.val % 25 = 0 :=
  (by decide +kernel : ∀ t : Fin grid0.N, isFirst (grid0.coords t) ↔ t.val % 25 = 0)
theorem last_iff : ∀ t : Fin cfg0.N, isLast (grid0.coords t) ↔ t.val % 25 = 24 :=
  (by decide +kernel : ∀ t : Fin grid0.N, isLast (grid0.coords t) ↔ t.val % 25 = 24)
/-- The inputs are never idle; the output block is idle exactly where the body does not store it. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem idle3_iff : ∀ t : Fin cfg0.N, cfg0.idle 3 (grid0.coords t) = true ↔ ¬ t.val % 25 = 24 :=
  (by decide +kernel : ∀ t : Fin grid0.N, cfg0.idle 3 (grid0.coords t) = true ↔ ¬ t.val % 25 = 24)

/-- What the launch hands the region of the kernel's own: the two scratch arrays at some contents, and the generator. -/
theorem PhiA_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-! ## The invariant between points -/

/-- Before point `n`: at the start what the launch hands over; afterwards the projected features in place, the
    accumulator at some contents with the slabs of points `0 … n - 1` in place, the generator at some state. -/
def Phi (c : Dev nD) : (n : ℕ) → n ≤ cfg0.N → sProp 𝕄
  | 0, _ => Pipeline.ΦA spec0 c
  | n + 1, _ => iprop(iprop(owns (c : Thread nD τ) sc0 fullShare (xw m c) ∗ (∃ d, ⌜Filled m c n d⌝ ∗ owns (c : Thread nD τ) sc1 fullShare d)) ∗ (∃ r, prngReg c r))

theorem Phi_zero (c : Dev nD) (n : ℕ) (h : n ≤ cfg0.N) (hz : n = 0) : Phi m c n h = Pipeline.ΦA spec0 c := by
  subst hz; rfl

theorem Phi_succ (c : Dev nD) (n : ℕ) (hn : n < cfg0.N) :
    Phi m c (n + 1) hn = iprop(iprop(owns (c : Thread nD τ) sc0 fullShare (xw m c) ∗ (∃ d, ⌜Filled m c n d⌝ ∗ owns (c : Thread nD τ) sc1 fullShare d)) ∗ (∃ r, prngReg c r)) := rfl

theorem Phi_pos (c : Dev nD) (n : ℕ) (h : n ≤ cfg0.N) (hz : n ≠ 0) :
    Phi m c n h = iprop(iprop(owns (c : Thread nD τ) sc0 fullShare (xw m c) ∗ (∃ d, ⌜Filled m c (n - 1) d⌝ ∗ owns (c : Thread nD τ) sc1 fullShare d)) ∗ (∃ r, prngReg c r)) := by
  cases n with
  | zero => exact absurd rfl hz
  | succ n => rfl

/-! ## The proof data -/

/-- The arrays as the region finds them; after the body each input's buffer at its block; the output block, where
    the body stores it, at the accumulator transposed; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outT m c
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = Phi m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outT m c := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the inputs' buffers hold their blocks; the point's number says which of the three runs
    applies; the invariant hands over the projected features and the accumulator with the earlier slabs in place and
    takes them back with this point's slab added; the output block comes back as it was found, except at the last
    point, where it is the whole accumulator transposed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = Phi m c (t.val + 1) t.isLt from rfl, Phi_succ]
  have hN : t.val < 25 := lt_of_lt_of_eq t.isLt N_eq
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  by_cases h0 : t.val % 25 = 0
  · -- the first point
    have hz : t.val = 0 := by omega
    have h1 : ¬ t.val % 25 = 24 := by omega
    obtain rfl : t = t0 := Fin.ext hz
    rw [Dat.leavesExact_idle (dats m 0 c) 3 t0 ((idle3_iff t0).mpr h1) (Bool.eq_false_iff.mpr fun h => h1 ((flush0_3 t0).mp h))]
    rw [Phi_castSucc m c t0, Phi_zero m c _ _ hz, PhiA_eq]
    iintro ⟨⟨⟨HS0, ⟨%d6, HS1⟩⟩, Hg⟩, Ho, ⟨%d0, H0⟩, ⟨%d1, H1⟩, ⟨%d2, H2⟩, ⟨%d3, H3⟩⟩
    iapply (run_first c (grid0.coords t0) (ms0 t0) (hs0 t0) (ms1 t0) (hs1 t0) (ms2 t0) (hs2 t0) (ms3 t0) (hs3 t0) sc0 (Memref.isWhole_whole _) sc1 (Memref.isWhole_whole _) ((first_iff t0).mpr h0) (fun h => h1 ((last_iff t0).mp h))
      (iblk m c 0 t0) (iblk m c 1 t0) (iblk m c 2 t0) ((dats m 0 c).before 3 t0 d3) d6 Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, HS0, HS1⟩
    isplitl [HS0 HS1 Hg]
    · isplitl [HS0 HS1]
      · isplitl [HS0]
        · iexact HS0
        iexists _; isplitr; swap; · iexact HS1
        ipureintro
        exact filled_put m c sc1 (Memref.isWhole_whole _) t0 d6 (fun n hn => absurd hn (by rw [hz]; omega))
      iexact Hg
    isplitl [Ho]; · iexact Ho
    isplitl [H0]; · iexact H0
    isplitl [H1]; · iexact H1
    isplitl [H2]; · iexact H2
    iexists _; iexact H3
  · have hz : t.val ≠ 0 := by omega
    rw [Phi_castSucc m c t, Phi_pos m c _ _ hz]
    by_cases h1 : t.val % 25 = 24
    · -- the last point
      rw [show (dats m 0 c).leavesExact 3 t = owns (c : Thread nD τ) (ms3 t) fullShare ((dats m 0 c).after 3 t) from by
        unfold Dat.leavesExact; rw [Bool.eq_false_iff.mpr fun h => (idle3_iff t).mp h h1], after3]
      iintro ⟨⟨⟨HS0, ⟨%d6, %hF, HS1⟩⟩, Hg⟩, Ho, ⟨%d0, H0⟩, ⟨%d1, H1⟩, ⟨%d2, H2⟩, ⟨%d3, H3⟩⟩
      have hprev : ∀ n, t.val = n + 1 → Filled m c n d6 := fun n hn => (show t.val - 1 = n by omega) ▸ hF
      have hF' := filled_put m c sc1 (Memref.isWhole_whole _) t d6 hprev
      have h24 : t.val = 24 := by omega
      have hF24 : Filled m c 24 (put sc1 (Memref.isWhole_whole _) (grid0.coords t) d6 (slab m c t)) := by
        rw [← h24]; exact hF'
      have hacc : put sc1 (Memref.isWhole_whole _) (grid0.coords t) d6 (slab m c t) = acc m c := eq_acc_of_filled m c _ hF24
      iapply (run_last c (grid0.coords t) (ms0 t) (hs0 t) (ms1 t) (hs1 t) (ms2 t) (hs2 t) (ms3 t) (hs3 t) sc0 (Memref.isWhole_whole _) sc1 (Memref.isWhole_whole _) (fun h => h0 ((first_iff t).mp h)) ((last_iff t).mpr h1)
        (iblk m c 0 t) (iblk m c 1 t) (iblk m c 2 t) ((dats m 0 c).before 3 t d3) (xw m c) d6 Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hg]
      · isplitl [HS0 HS1]
        · isplitl [HS0]
          · iexact HS0
          iexists _; isplitr; swap; · iexact HS1
          ipureintro
          exact hF'
        iexact Hg
      isplitl [Ho]; · iexact Ho
      isplitl [H0]; · iexact H0
      isplitl [H1]; · iexact H1
      isplitl [H2]; · iexact H2
      rw [show outT m c = k0_pay3 (put sc1 (Memref.isWhole_whole _) (grid0.coords t) d6 (slab m c t)) from by unfold outT; rw [hacc]]
      iexact H3
    · -- a point in between
      rw [Dat.leavesExact_idle (dats m 0 c) 3 t ((idle3_iff t).mpr h1) (Bool.eq_false_iff.mpr fun h => h1 ((flush0_3 t).mp h))]
      iintro ⟨⟨⟨HS0, ⟨%d6, %hF, HS1⟩⟩, Hg⟩, Ho, ⟨%d0, H0⟩, ⟨%d1, H1⟩, ⟨%d2, H2⟩, ⟨%d3, H3⟩⟩
      have hprev : ∀ n, t.val = n + 1 → Filled m c n d6 := fun n hn => (show t.val - 1 = n by omega) ▸ hF
      iapply (run_mid c (grid0.coords t) (ms0 t) (hs0 t) (ms1 t) (hs1 t) (ms2 t) (hs2 t) (ms3 t) (hs3 t) sc0 (Memref.isWhole_whole _) sc1 (Memref.isWhole_whole _) (fun h => h0 ((first_iff t).mp h)) (fun h => h1 ((last_iff t).mp h))
        (iblk m c 0 t) (iblk m c 1 t) (iblk m c 2 t) ((dats m 0 c).before 3 t d3) (xw m c) d6 Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hg]
      · isplitl [HS0 HS1]
        · isplitl [HS0]
          · iexact HS0
          iexists _; isplitr; swap; · iexact HS1
          ipureintro
          exact filled_put m c sc1 (Memref.isWhole_whole _) t d6 hprev
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Phi m c 0 (Nat.zero_le _) from rfl, Phi_zero m c 0 _ rfl]
  try exact Idealize.SL.BI.Entails.refl _

/-- After the last point the invariant gives it back: what the scratch arrays hold is forgotten. -/
theorem hout (c : Dev nD) : (dats m 0 c).Φ (Fin.last cfg0.N) ⊢ Pipeline.ΦA spec0 c := by
  rw [show (dats m 0 c).Φ (Fin.last cfg0.N) = Phi m c (Fin.last cfg0.N).val (Nat.le_of_lt_succ (Fin.last cfg0.N).isLt) from rfl,
    Phi_pos m c _ _ (by rw [Fin.val_last, N_eq]; omega), PhiA_eq]
  iintro ⟨⟨HS0, ⟨%d, -, HS1⟩⟩, Hg⟩
  isplitl [HS0 HS1]
  · isplitl [HS0]
    · iexists _; iexact HS0
    iexists _; iexact HS1
  iexact Hg

/-! ## The run and the frame -/

/-- Every weakly fair execution of the program terminates; the output array ends at what the proof data compute
    for it, the inputs' arrays as they were, every other buffer at what the host lines after the region leave. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The program runs and leaves its three argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Body

end
-- ==== Proof.IdealContents.lean ====
/-
  What the kernel's two scratch arrays and its output block hold, point by point, as functions of the input blocks.

  The grid has 25 points. At the first point the kernel computes the projected features `xw = x · wtᵀ` (stored in a
  narrower format) once and keeps them; at point `t` it computes the slab of 400 output rows `400 t … 400 t + 399`,
  `relu (adj_t · xw)`, from the `t`-th block of 400 adjacency rows, and stores it into those rows of an accumulator
  array, whose other rows it leaves alone; at the last point it transposes the accumulator into the output block.
  So after point `n` the rows below `400 (n + 1)` of the accumulator are determined (`Filled`) and the others are
  whatever they were; after the last point every row is determined and the accumulator is `acc`.
-/
import proofs.«119223_g89721866813830_cont_sun_m_1045_24_alg».proof.Proof.Gen.KernelIdeal.Frame
import proofs.«119223_g89721866813830_cont_sun_m_1045_24_alg».proof.Proof.Gen.KernelIdeal.Skeleton
import Idealize.ShloMosaic.Lib.ValueIdx

noncomputable section

namespace Cert.KernelIdeal.Body

open Idealize.ShloMosaic Idealize.ShloMosaic.ValueIdx Idealize.SL.Sem
open Cert.KernelIdeal Cert.KernelIdeal.Gen

variable {F : FTy → Type} [FloatOps F]

variable (m : (ℓ : Loc nD τ sig) → Buf (Elt F) ℓ)

theorem N_eq : cfg0.N = 25 := N_0

/-- The grid's first point. -/
def t0 : Fin cfg0.N := ⟨0, by rw [N_eq]; omega⟩

/-- The input blocks at a point, at their literal shapes: all of `x`, all of `wt`, and 400 rows of `adj`. -/
abbrev xblk (c : Dev nD) (t : Fin cfg0.N) : Vec F S10000x128 .f32 := iblk m c 0 t
abbrev wtblk (c : Dev nD) (t : Fin cfg0.N) : Vec F S32x128 .f32 := iblk m c 1 t
abbrev adjblk (c : Dev nD) (t : Fin cfg0.N) : Vec F S400x10000 .f32 := iblk m c 2 t

/-- The projected features the first point computes and every later point reads. -/
def xw (c : Dev nD) : Vec F S10000x32 .bf16 := k0_pay1 (xblk m c t0) (wtblk m c t0)

/-- The 400 output rows point `t` computes. -/
def slab (c : Dev nD) (t : Fin cfg0.N) : Vec F S400x32 .f32 := k0_pay2 (adjblk m c t) (xw m c)

theorem block_lt (y : S10000x32.Idx) : (y 0).val / 400 < cfg0.N := by
  rw [N_eq]; have := idx2_lt0 y; omega

/-- The accumulator after the last point: row `r` is row `r % 400` of the slab of point `r / 400`. -/
def acc (c : Dev nD) : Vec F S10000x32 .f32 :=
  fun y => slab m c ⟨(y 0).val / 400, block_lt y⟩ (ix2 (⟨(y 0).val % 400, Nat.mod_lt _ (by omega)⟩ : Fin 400) (⟨(y 1).val, idx2_lt1 y⟩ : Fin 32))

/-- The output block the last point stores: the accumulator transposed. -/
def outT (c : Dev nD) : Vec F S32x10000 .f32 := k0_pay3 (acc m c)

/-- The rows of the slabs of points `0 … n` of an accumulator array `d` hold those slabs. -/
def Filled (c : Dev nD) (n : ℕ) (d : Vec F S10000x32 .f32) : Prop :=
  ∀ t : Fin cfg0.N, t.val ≤ n → ∀ (r : Fin 400) (q : Fin 32) (h : 400 * t.val + r.val < 10000),
    d (ix2 (⟨400 * t.val + r.val, h⟩ : Fin 10000) q) = slab m c t (ix2 r q)

/-- Once the slabs of all 25 points are in, the accumulator is `acc`. -/
theorem eq_acc_of_filled (c : Dev nD) (d : Vec F S10000x32 .f32) (h : Filled m c 24 d) : d = acc m c := by
  funext y
  obtain ⟨p, q, rfl⟩ : ∃ (p : Fin 10000) (q : Fin 32), y = ix2 p q := ⟨y 0, y 1, eq_ix2 y⟩
  have hp := p.isLt
  have hdiv : p.val / 400 < cfg0.N := by rw [N_eq]; omega
  have hle : (⟨p.val / 400, hdiv⟩ : Fin cfg0.N).val ≤ 24 := by show p.val / 400 ≤ 24; omega
  have hrow : 400 * (p.val / 400) + p.val % 400 < 10000 := by rw [Nat.div_add_mod]; exact hp
  have := h ⟨p.val / 400, hdiv⟩ hle ⟨p.val % 400, Nat.mod_lt _ (by omega)⟩ q hrow
  have hidx : (ix2 (⟨400 * (p.val / 400) + p.val % 400, hrow⟩ : Fin 10000) q : S10000x32.Idx) = ix2 p q := by
    congr 1; exact Fin.ext (Nat.div_add_mod _ _)
  rw [hidx] at this
  exact this

end Cert.KernelIdeal.Body

end
-- ==== Proof.IdealCases.lean ====
/-
  The kernel's body run once, in each of the three situations the grid meets.

  The body branches twice on the grid coordinate: "is this the first point" (then it computes the projected features
  and stores them whole into the first scratch array) and "is this the last point" (then it transposes the whole
  accumulator into the output block). In between, at every point, it multiplies the point's 400 adjacency rows with
  the projected features, clips at zero, and stores the 400 × 32 slab into the point's rows of the accumulator.
  Each run below says exactly what every buffer holds afterwards, as a function of what it held before: the inputs
  and, away from the last point, the output block are untouched; the accumulator is the old one with the slab put
  in (`put`); at the last point the output block is the transpose of that.
-/
import proofs.«119223_g89721866813830_cont_sun_m_1045_24_alg».proof.Proof.Gen.KernelIdeal.Frame
import proofs.«119223_g89721866813830_cont_sun_m_1045_24_alg».proof.Proof.Gen.KernelIdeal.Skeleton
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

/-- "This is the grid's first point", as the body computes it from the coordinate. -/
abbrev isFirst (i : grid0.Coords) : Prop := (Scalar.cmpi .ne (Scalar.extui (Scalar.cmpi .eq (BitVec.ofNat 32 (i 0).val) 0#32)) 0#32) = 1#1
/-- "This is the grid's last point", as the body computes it from the coordinate. -/
abbrev isLast (i : grid0.Coords) : Prop := k0_cond2 i = 1#1

/-- The accumulator contents `d` with the slab `p` stored over the 400 rows of point `i`, read back through the
    accumulator's own memref: what the buffer holds after the point's store. -/
def put (arg6 : Memref sig .tc .vmem S10000x32 .f32) (harg6 : arg6.IsWhole) (i : grid0.Coords) (d : Vec F S10000x32 .f32) (p : Vec F S400x32 .f32) :
    Vec F S10000x32 .f32 :=
  arg6.view.read (Elt F) (arg6.view.writes (Elt F) (harg6.unread d)
    [(⟨Rect.unit (s := S10000x32) (k0_off1 i) S400x32.size (k0_off1_inb i), p⟩ : View.Piece (Elt F) S10000x32 .f32)])

theorem zero2 : (![0, 0] : Fin 2 → ℕ) = fun _ => 0 := by funext a; fin_cases a <;> rfl

/-- One store through the whole-shape rectangle leaves its payload, whatever was there. -/
theorem read_whole_store {sp : Space} {S : Shape} {e : EltTy} (v : View sig .tc sp S e) (f : v.ty.Contents (Elt F))
    {off : Fin S.rank → ℕ} (h : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon v f _ (fun y => ⟨_, List.mem_singleton_self _, View.mem_set_unit_zero h inb y⟩)]
  exact View.canon_unit_zero h inb w

set_option maxHeartbeats 1000000 in
/-- A point that is neither first nor last: only the accumulator changes. -/
theorem run_mid (c : Dev nD) (i : grid0.Coords) (arg1 : Memref sig .tc .vmem S10000x128 .f32) (harg1 : arg1.IsWhole) (arg2 : Memref sig .tc .vmem S32x128 .f32) (harg2 : arg2.IsWhole) (arg3 : Memref sig .tc .vmem S400x10000 .f32) (harg3 : arg3.IsWhole) (arg4 : Memref sig .tc .vmem S32x10000 .f32) (harg4 : arg4.IsWhole) (arg5 : Memref sig .tc .vmem S10000x32 .bf16) (harg5 : arg5.IsWhole) (arg6 : Memref sig .tc .vmem S10000x32 .f32) (harg6 : arg6.IsWhole) (hc0 : ¬isFirst i) (hc1 : ¬isLast i)
    (x0 : Vec F S10000x128 .f32) (x1 : Vec F S32x128 .f32) (x2 : Vec F S400x10000 .f32) (d4 : Vec F S32x10000 .f32) (xs : Vec F S10000x32 .bf16) (d6 : Vec F S10000x32 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare d4 ∗ owns (c : Thread nD τ) arg5 fullShare xs ∗ owns (c : Thread nD τ) arg6 fullShare d6
        ∗ (iprop(owns (c : Thread nD τ) arg1 fullShare x0 ∗ owns (c : Thread nD τ) arg2 fullShare x1 ∗ owns (c : Thread nD τ) arg3 fullShare x2 ∗ owns (c : Thread nD τ) arg4 fullShare d4 ∗ owns (c : Thread nD τ) arg5 fullShare xs
            ∗ owns (c : Thread nD τ) arg6 fullShare (put arg6 harg6 i d6 (k0_pay2 x2 xs))) -∗ K ⟨⟩))
      ⊢ wp frame (wpE (defs₀ (F := F)) Variants.none c none) E (cc0__fused_kernel i arg1 harg1 arg2 harg2 arg3 harg3 arg4 harg4 arg5 harg5 arg6 harg6) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  obtain rfl := harg1.eq_unread hf0; obtain rfl := harg2.eq_unread hf1; obtain rfl := harg3.eq_unread hf2
  obtain rfl := harg4.eq_unread hf3; obtain rfl := harg5.eq_unread hfs0; obtain rfl := harg6.eq_unread hfs1
  sl_exec (disch := first | exact hc0 | exact hc1)
  sl_step
  sl_unfold_words
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [HS0]
  · iexists _; isplitr; · ipureintro; exact harg5.read_unread _
    iexact HS0
  iexists _; isplitr; swap; · iexact HS1
  ipureintro
  unfold put
  simp only [View.readAt_eq_ld, harg3.read_unread, harg5.read_unread, View.ld_unit_zero (S := S400x10000) zero2, View.ld_unit_zero (S := S10000x32) zero2]
  rfl

set_option maxHeartbeats 1000000 in
/-- The first point: the projected features are computed and kept, and the first slab goes into the accumulator. -/
theorem run_first (c : Dev nD) (i : grid0.Coords) (arg1 : Memref sig .tc .vmem S10000x128 .f32) (harg1 : arg1.IsWhole) (arg2 : Memref sig .tc .vmem S32x128 .f32) (harg2 : arg2.IsWhole) (arg3 : Memref sig .tc .vmem S400x10000 .f32) (harg3 : arg3.IsWhole) (arg4 : Memref sig .tc .vmem S32x10000 .f32) (harg4 : arg4.IsWhole) (arg5 : Memref sig .tc .vmem S10000x32 .bf16) (harg5 : arg5.IsWhole) (arg6 : Memref sig .tc .vmem S10000x32 .f32) (harg6 : arg6.IsWhole) (hc0 : isFirst i) (hc1 : ¬isLast i)
    (x0 : Vec F S10000x128 .f32) (x1 : Vec F S32x128 .f32) (x2 : Vec F S400x10000 .f32) (d4 : Vec F S32x10000 .f32) (d6 : Vec F S10000x32 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare d4 ∗ (∃ d, owns (c : Thread nD τ) arg5 fullShare d) ∗ owns (c : Thread nD τ) arg6 fullShare d6
        ∗ (iprop(owns (c : Thread nD τ) arg1 fullShare x0 ∗ owns (c : Thread nD τ) arg2 fullShare x1 ∗ owns (c : Thread nD τ) arg3 fullShare x2 ∗ owns (c : Thread nD τ) arg4 fullShare d4 ∗ owns (c : Thread nD τ) arg5 fullShare (k0_pay1 x0 x1)
            ∗ owns (c : Thread nD τ) arg6 fullShare (put arg6 harg6 i d6 (k0_pay2 x2 (k0_pay1 x0 x1)))) -∗ K ⟨⟩))
      ⊢ wp frame (wpE (defs₀ (F := F)) Variants.none c none) E (cc0__fused_kernel i arg1 harg1 arg2 harg2 arg3 harg3 arg4 harg4 arg5 harg5 arg6 harg6) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%ds0, %fs0, -, HS0⟩, ⟨%fs1, %hfs1, HS1⟩, Hk⟩
  obtain rfl := harg1.eq_unread hf0; obtain rfl := harg2.eq_unread hf1; obtain rfl := harg3.eq_unread hf2
  obtain rfl := harg4.eq_unread hf3; obtain rfl := harg6.eq_unread hfs1
  sl_exec (disch := first | exact hc0 | exact hc1)
  sl_step
  sl_unfold_words
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [HS0]
  · iexists _; isplitr; swap; · iexact HS0
    ipureintro
    simp only [View.readAt_eq_ld, harg1.read_unread, harg2.read_unread, View.ld_unit_zero (S := S10000x128) zero2, View.ld_unit_zero (S := S32x128) zero2]
    exact read_whole_store _ _ zero2 _ _
  iexists _; isplitr; swap; · iexact HS1
  ipureintro
  unfold put
  simp only [View.readAt_eq_ld, harg1.read_unread, harg2.read_unread, harg3.read_unread, View.ld_unit_zero (S := S10000x128) zero2,
    View.ld_unit_zero (S := S32x128) zero2, View.ld_unit_zero (S := S400x10000) zero2, View.readCov_unit_zero (S := S10000x32) _ zero2]
  rfl

set_option maxHeartbeats 1000000 in
/-- The last point: the last slab goes in, and the output block becomes the whole accumulator transposed. -/
theorem run_last (c : Dev nD) (i : grid0.Coords) (arg1 : Memref sig .tc .vmem S10000x128 .f32) (harg1 : arg1.IsWhole) (arg2 : Memref sig .tc .vmem S32x128 .f32) (harg2 : arg2.IsWhole) (arg3 : Memref sig .tc .vmem S400x10000 .f32) (harg3 : arg3.IsWhole) (arg4 : Memref sig .tc .vmem S32x10000 .f32) (harg4 : arg4.IsWhole) (arg5 : Memref sig .tc .vmem S10000x32 .bf16) (harg5 : arg5.IsWhole) (arg6 : Memref sig .tc .vmem S10000x32 .f32) (harg6 : arg6.IsWhole) (hc0 : ¬isFirst i) (hc1 : isLast i)
    (x0 : Vec F S10000x128 .f32) (x1 : Vec F S32x128 .f32) (x2 : Vec F S400x10000 .f32) (d4 : Vec F S32x10000 .f32) (xs : Vec F S10000x32 .bf16) (d6 : Vec F S10000x32 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare d4 ∗ owns (c : Thread nD τ) arg5 fullShare xs ∗ owns (c : Thread nD τ) arg6 fullShare d6
        ∗ (iprop(owns (c : Thread nD τ) arg1 fullShare x0 ∗ owns (c : Thread nD τ) arg2 fullShare x1 ∗ owns (c : Thread nD τ) arg3 fullShare x2 ∗ owns (c : Thread nD τ) arg4 fullShare (k0_pay3 (put arg6 harg6 i d6 (k0_pay2 x2 xs))) ∗ owns (c : Thread nD τ) arg5 fullShare xs
            ∗ owns (c : Thread nD τ) arg6 fullShare (put arg6 harg6 i d6 (k0_pay2 x2 xs))) -∗ K ⟨⟩))
      ⊢ wp frame (wpE (defs₀ (F := F)) Variants.none c none) E (cc0__fused_kernel i arg1 harg1 arg2 harg2 arg3 harg3 arg4 harg4 arg5 harg5 arg6 harg6) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  obtain rfl := harg1.eq_unread hf0; obtain rfl := harg2.eq_unread hf1; obtain rfl := harg3.eq_unread hf2
  obtain rfl := harg4.eq_unread hf3; obtain rfl := harg5.eq_unread hfs0; obtain rfl := harg6.eq_unread hfs1
  sl_exec (disch := first | exact hc0 | exact hc1)
  sl_step
  sl_unfold_words
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; swap; · iexact H3
    ipureintro
    rw [read_whole_store _ _ zero2]
    unfold put
    simp only [View.readAt_eq_ld, harg3.read_unread, harg5.read_unread, View.ld_unit_zero (S := S400x10000) zero2, View.ld_unit_zero (S := S10000x32) zero2]
    rfl
  isplitl [HS0]
  · iexists _; isplitr; · ipureintro; exact harg5.read_unread _
    iexact HS0
  iexists _; isplitr; swap; · iexact HS1
  ipureintro
  unfold put
  simp only [View.readAt_eq_ld, harg3.read_unread, harg5.read_unread, View.ld_unit_zero (S := S400x10000) zero2, View.ld_unit_zero (S := S10000x32) zero2]
  rfl

end Cert.KernelIdeal.Body

end
-- ==== Proof.IdealFill.lean ====
/-
  Storing one point's slab advances what is known of the accumulator by one point.

  The slab of point `t` goes to rows `400 t … 400 t + 399` (the row offset the body computes from the coordinate is
  `400 t` at every point of the grid, by inspection of the 25 points). A row inside that range then reads the slab,
  a row outside it reads what the accumulator held before; so if the slabs of the points before `t` were in place,
  the slabs of the points up to `t` are.
-/
import proofs.«119223_g89721866813830_cont_sun_m_1045_24_alg».proof.Proof.IdealContents
import proofs.«119223_g89721866813830_cont_sun_m_1045_24_alg».proof.Proof.IdealCases
import Idealize.ShloMosaic.Lib.WritesUnit

noncomputable section

namespace Cert.KernelIdeal.Body

open Idealize.ShloMosaic Idealize.ShloMosaic.ValueIdx Idealize.SL.Sem
open Cert.KernelIdeal Cert.KernelIdeal.Gen

variable {F : FTy → Type} [FloatOps F]

variable (m : (ℓ : Loc nD τ sig) → Buf (Elt F) ℓ)

/-- The slab's row offset at point `t` is `400 t`, its column offset `0`: the body's own arithmetic, at each of the 25 points. -/
theorem off_eq (t : Fin cfg0.N) : k0_off1 (grid0.coords t) = ![400 * t.val, 0] :=
  (by decide +kernel : ∀ t : Fin grid0.N, k0_off1 (grid0.coords t) = ![400 * t.val, 0]) t

/-- A row of point `t`'s range reads the slab just stored. -/
theorem put_apply_mem (arg6 : Memref sig .tc .vmem S10000x32 .f32) (harg6 : arg6.IsWhole) (t : Fin cfg0.N)
    (d : Vec F S10000x32 .f32) (p : Vec F S400x32 .f32) (r : Fin 400) (q : Fin 32) (h : 400 * t.val + r.val < 10000) :
    put arg6 harg6 (grid0.coords t) d p (ix2 (⟨400 * t.val + r.val, h⟩ : Fin 10000) q) = p (ix2 r q) := by
  unfold put
  exact View.read_writes_cons_rows_of_mem arg6.view _ (k0_off1_inb _) p [] (ix2 (⟨400 * t.val + r.val, h⟩ : Fin 10000) q) (ix2 r q)
    (off_eq t) rfl rfl

/-- A row outside point `t`'s range reads what the accumulator held. -/
theorem put_apply_not_mem (arg6 : Memref sig .tc .vmem S10000x32 .f32) (harg6 : arg6.IsWhole) (t : Fin cfg0.N)
    (d : Vec F S10000x32 .f32) (p : Vec F S400x32 .f32) (y : S10000x32.Idx)
    (h : (y 0).val < 400 * t.val ∨ 400 * t.val + 400 ≤ (y 0).val) :
    put arg6 harg6 (grid0.coords t) d p y = d y := by
  unfold put
  rw [View.read_writes_cons_rows_of_not_mem arg6.view _ (k0_off1_inb _) p [] y (off_eq t) rfl h, View.writes_nil, harg6.read_unread]

/-- With the slabs of the earlier points in place, storing point `t`'s slab puts the slabs of points `0 … t` in place. -/
theorem filled_put (c : Dev nD) (arg6 : Memref sig .tc .vmem S10000x32 .f32) (harg6 : arg6.IsWhole) (t : Fin cfg0.N)
    (d : Vec F S10000x32 .f32) (hprev : ∀ n, t.val = n + 1 → Filled m c n d) :
    Filled m c t.val (put arg6 harg6 (grid0.coords t) d (slab m c t)) := by
  intro t' ht' r q h
  by_cases he : t' = t
  · subst he
    exact put_apply_mem arg6 harg6 t' d (slab m c t') r q h
  · have hlt : t'.val < t.val := lt_of_le_of_ne ht' (fun hv => he (Fin.ext hv))
    have hr := r.isLt
    rw [put_apply_not_mem arg6 harg6 t d (slab m c t) _ (Or.inl (by show 400 * t'.val + r.val < 400 * t.val; omega))]
    exact hprev (t.val - 1) (by omega) t' (by omega) r q h

end Cert.KernelIdeal.Body

end
-- ==== Proof.IdealBody.lean ====
/-
  The region's proof data, the body at every point, and the run of the whole program.

  Between points the region keeps: the projected features in the first scratch array (from the first point on),
  and the accumulator at SOME contents of which the slabs of the points already run are known (`Filled`); the rows
  of later points hold whatever the buffer held at entry, which nothing reads before it is overwritten. The
  output block is written once, at the last point, with the whole accumulator transposed (`outT`), and is written
  back to its array once, after that point; at every other point the body leaves the block as it found it.
  At a point the body is one of the three runs (first, middle, last), chosen by the point's number.
-/
import proofs.«119223_g89721866813830_cont_sun_m_1045_24_alg».proof.Proof.IdealContents
import proofs.«119223_g89721866813830_cont_sun_m_1045_24_alg».proof.Proof.IdealCases
import proofs.«119223_g89721866813830_cont_sun_m_1045_24_alg».proof.Proof.IdealFill
import Idealize.ShloMosaic.Lib.Pipeline.Kit

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

variable (m : (ℓ : Loc nD τ sig) → Buf (Elt F) ℓ) (ρ : Dev nD → PrngReg)

/-! ## The memrefs the body is called with, and where the grid's branches and idle points are -/

abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S32x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S400x10000 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S32x10000 .f32 := win0_3.stage (cfg0.slots t 3)
abbrev hs3 (t : Fin cfg0.N) : (ms3 t).IsWhole := hstage0_3 ((cfg0.slots t 3).cast nbuf0_3)
/-- The two scratch arrays: the projected features, and the accumulator. -/
abbrev sc0 : Memref sig .tc .vmem S10000x32 .bf16 := Memref.whole cc0_scratch0
abbrev sc1 : Memref sig .tc .vmem S10000x32 .f32 := Memref.whole cc0_scratch1

/-- The first branch is taken at point 0 only, the second at point 24 only: by inspection of the 25 points. -/
theorem first_iff : ∀ t : Fin cfg0.N, isFirst (grid0.coords t) ↔ t.val % 25 = 0 :=
  (by decide +kernel : ∀ t : Fin grid0.N, isFirst (grid0.coords t) ↔ t.val % 25 = 0)
theorem last_iff : ∀ t : Fin cfg0.N, isLast (grid0.coords t) ↔ t.val % 25 = 24 :=
  (by decide +kernel : ∀ t : Fin grid0.N, isLast (grid0.coords t) ↔ t.val % 25 = 24)
/-- The inputs are never idle; the output block is idle exactly where the body does not store it. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem idle3_iff : ∀ t : Fin cfg0.N, cfg0.idle 3 (grid0.coords t) = true ↔ ¬ t.val % 25 = 24 :=
  (by decide +kernel : ∀ t : Fin grid0.N, cfg0.idle 3 (grid0.coords t) = true ↔ ¬ t.val % 25 = 24)

/-- What the launch hands the region of the kernel's own: the two scratch arrays at some contents, and the generator. -/
theorem PhiA_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-! ## The invariant between points -/

/-- Before point `n`: at the start what the launch hands over; afterwards the projected features in place, the
    accumulator at some contents with the slabs of points `0 … n - 1` in place, the generator at some state. -/
def Phi (c : Dev nD) : (n : ℕ) → n ≤ cfg0.N → sProp 𝕄
  | 0, _ => Pipeline.ΦA spec0 c
  | n + 1, _ => iprop(iprop(owns (c : Thread nD τ) sc0 fullShare (xw m c) ∗ (∃ d, ⌜Filled m c n d⌝ ∗ owns (c : Thread nD τ) sc1 fullShare d)) ∗ (∃ r, prngReg c r))

theorem Phi_zero (c : Dev nD) (n : ℕ) (h : n ≤ cfg0.N) (hz : n = 0) : Phi m c n h = Pipeline.ΦA spec0 c := by
  subst hz; rfl

theorem Phi_succ (c : Dev nD) (n : ℕ) (hn : n < cfg0.N) :
    Phi m c (n + 1) hn = iprop(iprop(owns (c : Thread nD τ) sc0 fullShare (xw m c) ∗ (∃ d, ⌜Filled m c n d⌝ ∗ owns (c : Thread nD τ) sc1 fullShare d)) ∗ (∃ r, prngReg c r)) := rfl

theorem Phi_pos (c : Dev nD) (n : ℕ) (h : n ≤ cfg0.N) (hz : n ≠ 0) :
    Phi m c n h = iprop(iprop(owns (c : Thread nD τ) sc0 fullShare (xw m c) ∗ (∃ d, ⌜Filled m c (n - 1) d⌝ ∗ owns (c : Thread nD τ) sc1 fullShare d)) ∗ (∃ r, prngReg c r)) := by
  cases n with
  | zero => exact absurd rfl hz
  | succ n => rfl

/-! ## The proof data -/

/-- The arrays as the region finds them; after the body each input's buffer at its block; the output block, where
    the body stores it, at the accumulator transposed; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outT m c
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = Phi m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outT m c := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the inputs' buffers hold their blocks; the point's number says which of the three runs
    applies; the invariant hands over the projected features and the accumulator with the earlier slabs in place and
    takes them back with this point's slab added; the output block comes back as it was found, except at the last
    point, where it is the whole accumulator transposed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = Phi m c (t.val + 1) t.isLt from rfl, Phi_succ]
  have hN : t.val < 25 := lt_of_lt_of_eq t.isLt N_eq
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  by_cases h0 : t.val % 25 = 0
  · -- the first point
    have hz : t.val = 0 := by omega
    have h1 : ¬ t.val % 25 = 24 := by omega
    obtain rfl : t = t0 := Fin.ext hz
    rw [Dat.leavesExact_idle (dats m 0 c) 3 t0 ((idle3_iff t0).mpr h1) (Bool.eq_false_iff.mpr fun h => h1 ((flush0_3 t0).mp h))]
    rw [Phi_castSucc m c t0, Phi_zero m c _ _ hz, PhiA_eq]
    iintro ⟨⟨⟨HS0, ⟨%d6, HS1⟩⟩, Hg⟩, Ho, ⟨%d0, H0⟩, ⟨%d1, H1⟩, ⟨%d2, H2⟩, ⟨%d3, H3⟩⟩
    iapply (run_first c (grid0.coords t0) (ms0 t0) (hs0 t0) (ms1 t0) (hs1 t0) (ms2 t0) (hs2 t0) (ms3 t0) (hs3 t0) sc0 (Memref.isWhole_whole _) sc1 (Memref.isWhole_whole _) ((first_iff t0).mpr h0) (fun h => h1 ((last_iff t0).mp h))
      (iblk m c 0 t0) (iblk m c 1 t0) (iblk m c 2 t0) ((dats m 0 c).before 3 t0 d3) d6 Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, HS0, HS1⟩
    isplitl [HS0 HS1 Hg]
    · isplitl [HS0 HS1]
      · isplitl [HS0]
        · iexact HS0
        iexists _; isplitr; swap; · iexact HS1
        ipureintro
        exact filled_put m c sc1 (Memref.isWhole_whole _) t0 d6 (fun n hn => absurd hn (by rw [hz]; omega))
      iexact Hg
    isplitl [Ho]; · iexact Ho
    isplitl [H0]; · iexact H0
    isplitl [H1]; · iexact H1
    isplitl [H2]; · iexact H2
    iexists _; iexact H3
  · have hz : t.val ≠ 0 := by omega
    rw [Phi_castSucc m c t, Phi_pos m c _ _ hz]
    by_cases h1 : t.val % 25 = 24
    · -- the last point
      rw [show (dats m 0 c).leavesExact 3 t = owns (c : Thread nD τ) (ms3 t) fullShare ((dats m 0 c).after 3 t) from by
        unfold Dat.leavesExact; rw [Bool.eq_false_iff.mpr fun h => (idle3_iff t).mp h h1], after3]
      iintro ⟨⟨⟨HS0, ⟨%d6, %hF, HS1⟩⟩, Hg⟩, Ho, ⟨%d0, H0⟩, ⟨%d1, H1⟩, ⟨%d2, H2⟩, ⟨%d3, H3⟩⟩
      have hprev : ∀ n, t.val = n + 1 → Filled m c n d6 := fun n hn => (show t.val - 1 = n by omega) ▸ hF
      have hF' := filled_put m c sc1 (Memref.isWhole_whole _) t d6 hprev
      have h24 : t.val = 24 := by omega
      have hF24 : Filled m c 24 (put sc1 (Memref.isWhole_whole _) (grid0.coords t) d6 (slab m c t)) := by
        rw [← h24]; exact hF'
      have hacc : put sc1 (Memref.isWhole_whole _) (grid0.coords t) d6 (slab m c t) = acc m c := eq_acc_of_filled m c _ hF24
      iapply (run_last c (grid0.coords t) (ms0 t) (hs0 t) (ms1 t) (hs1 t) (ms2 t) (hs2 t) (ms3 t) (hs3 t) sc0 (Memref.isWhole_whole _) sc1 (Memref.isWhole_whole _) (fun h => h0 ((first_iff t).mp h)) ((last_iff t).mpr h1)
        (iblk m c 0 t) (iblk m c 1 t) (iblk m c 2 t) ((dats m 0 c).before 3 t d3) (xw m c) d6 Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hg]
      · isplitl [HS0 HS1]
        · isplitl [HS0]
          · iexact HS0
          iexists _; isplitr; swap; · iexact HS1
          ipureintro
          exact hF'
        iexact Hg
      isplitl [Ho]; · iexact Ho
      isplitl [H0]; · iexact H0
      isplitl [H1]; · iexact H1
      isplitl [H2]; · iexact H2
      rw [show outT m c = k0_pay3 (put sc1 (Memref.isWhole_whole _) (grid0.coords t) d6 (slab m c t)) from by unfold outT; rw [hacc]]
      iexact H3
    · -- a point in between
      rw [Dat.leavesExact_idle (dats m 0 c) 3 t ((idle3_iff t).mpr h1) (Bool.eq_false_iff.mpr fun h => h1 ((flush0_3 t).mp h))]
      iintro ⟨⟨⟨HS0, ⟨%d6, %hF, HS1⟩⟩, Hg⟩, Ho, ⟨%d0, H0⟩, ⟨%d1, H1⟩, ⟨%d2, H2⟩, ⟨%d3, H3⟩⟩
      have hprev : ∀ n, t.val = n + 1 → Filled m c n d6 := fun n hn => (show t.val - 1 = n by omega) ▸ hF
      iapply (run_mid c (grid0.coords t) (ms0 t) (hs0 t) (ms1 t) (hs1 t) (ms2 t) (hs2 t) (ms3 t) (hs3 t) sc0 (Memref.isWhole_whole _) sc1 (Memref.isWhole_whole _) (fun h => h0 ((first_iff t).mp h)) (fun h => h1 ((last_iff t).mp h))
        (iblk m c 0 t) (iblk m c 1 t) (iblk m c 2 t) ((dats m 0 c).before 3 t d3) (xw m c) d6 Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hg]
      · isplitl [HS0 HS1]
        · isplitl [HS0]
          · iexact HS0
          iexists _; isplitr; swap; · iexact HS1
          ipureintro
          exact filled_put m c sc1 (Memref.isWhole_whole _) t d6 hprev
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Phi m c 0 (Nat.zero_le _) from rfl, Phi_zero m c 0 _ rfl]
  try exact Idealize.SL.BI.Entails.refl _

/-- After the last point the invariant gives it back: what the scratch arrays hold is forgotten. -/
theorem hout (c : Dev nD) : (dats m 0 c).Φ (Fin.last cfg0.N) ⊢ Pipeline.ΦA spec0 c := by
  rw [show (dats m 0 c).Φ (Fin.last cfg0.N) = Phi m c (Fin.last cfg0.N).val (Nat.le_of_lt_succ (Fin.last cfg0.N).isLt) from rfl,
    Phi_pos m c _ _ (by rw [Fin.val_last, N_eq]; omega), PhiA_eq]
  iintro ⟨⟨HS0, ⟨%d, -, HS1⟩⟩, Hg⟩
  isplitl [HS0 HS1]
  · isplitl [HS0]
    · iexists _; iexact HS0
    iexists _; iexact HS1
  iexact Hg

/-! ## The run and the frame -/

/-- Every weakly fair execution of the program terminates; the output array ends at what the proof data compute
    for it, the inputs' arrays as they were, every other buffer at what the host lines after the region leave. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The program runs and leaves its three argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Body

end
-- ==== Proof.IdealFinal.lean ====
/-
  The run's post read as values: what the output array and the program's result hold when the program ends.

  The output block is written back once, at the last point, and its one block is the whole 32 × 10000 array; so the
  array ends at the block the last point left, the accumulator transposed. The one host line after the region
  transposes that array into the result, and the argument arrays end as launched.
-/
import proofs.«119223_g89721866813830_cont_sun_m_1045_24_alg».proof.Proof.IdealBody
import Idealize.ShloMosaic.Lib.Pipeline.Value
import Idealize.ShloMosaic.Lib.StableHlo.Run

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen Idealize.ShloMosaic.StableHlo

variable (m : (ℓ : Loc nD τ sig) → Buf (Elt F) ℓ) (ρ : Dev nD → PrngReg)

/-- The grid's last point. -/
def tL : Fin cfg0.N := ⟨24, by rw [N_eq]; omega⟩

/-- The output window's block index is `(0, 0)` at every point: its one block is the whole array. -/
theorem out_index (t : Fin cfg0.N) (a : Fin 2) : win0_3.index t a = 0 :=
  (by decide +kernel : ∀ (t : Fin grid0.N) (a : Fin 2), win0_3.index t a = 0) t a

/-- At the last point the block's extent is the array's (nothing is clipped). -/
theorem out_extent (a : Fin 2) : win0_3.xsize (grid0.coords tL) a = S32x10000.size a :=
  (by decide +kernel : ∀ a : Fin 2, win0_3.xsize (grid0.coords tL) a = S32x10000.size a) a

/-- The one write-back writes the accumulator transposed: block `(0, 0)` of the array, read through zero offsets, is the array. -/
theorem flushed_eq (c : Dev nD) (t : Fin cfg0.N) (hf : (cfg0.win 3).flush t = true) :
    (dats m 0 c).flushed 3 t = ((cfg0.win 3).blk t).view.read (Elt F) (outT m c : Buf (Elt F) ((c : Thread nD τ).loc main_v1)) := by
  show (cfg0.win 3).cut (grid0.coords t) ((dats m 0 c).after 3 t) = _
  rw [after3]
  have hz' : (fun a => win0_3.index t a * main_v1.ty.shape.size a) = fun _ => 0 :=
    funext fun a => by rw [out_index t a]; exact Nat.zero_mul _
  exact (Memref.read_access_unit_zero (Elt F) main_v1 hz' (fun a => by rw [congrFun hz' a]; simp)
    (outT m c : Buf (Elt F) ((c : Thread nD τ).loc main_v1))).symm

/-- So the output array ends holding the accumulator transposed. -/
theorem final_out (c : Dev nD) : (dats m 0 c).arrAt 3 cfg0.N = (outT m c : Buf (Elt F) ((c : Thread nD τ).loc main_v1)) :=
  (dats m 0 c).arrAt_eq_of_cover 3 (outT m c : Buf (Elt F) ((c : Thread nD τ).loc main_v1)) (flushed_eq m c) fun i =>
    ⟨tL, (flush0_3 tL).mpr rfl, by
      show i ∈ ((View.whole main_v1).slice (win0_3.rect tL)).set
      rw [View.set_slice_whole, Rect.mem_set_unit]
      intro a
      rw [out_index tL a, Nat.zero_mul, Nat.zero_add, out_extent a]
      exact ⟨Nat.zero_le _, (i a).isLt⟩⟩

/-- The program's result: the one host line after the region transposes the output array. -/
theorem result_eq (c : Dev nD) :
    Pipeline.afterTail₀ cfgs (dats m) 0 (V0 m) [hostOps1] c main_v2
      = transpose S10000x32 [1, 0] (outT m c) transposes_S32x10000_S10000x32_1_0 := by
  unfold Pipeline.afterTail₀
  show StableHlo.after hostOps1 _ (Proc.devRef .tc main_v2) = _
  after_results
  exact congrArg (fun x => transpose S10000x32 [1, 0] x transposes_S32x10000_S10000x32_1_0)
    ((Pipeline.withArrays_arr spec0 launch0.win.arr_inj c _ _ 3).trans (final_out m c))

/-- THE RUN, with every result named: every weakly fair execution terminates, the result array holds the
    accumulator transposed twice over (once by the body into the output block, once by the host), and the three
    argument arrays are as launched. -/
theorem run_value : θ_run defs (onTc (τ := τ) (main (F := F))) ⟨m, fun _ => 0, ρ⟩ (fun r => ∀ c : Dev nD,
      r.2.mem ((c.tc : Thread nD τ).loc main_v2) = transpose S10000x32 [1, 0] (outT m c) transposes_S32x10000_S10000x32_1_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v2 (Pipeline.mem_restRefs_of main_v2 (by decide) (by decide))).trans (result_eq m c),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).2 main_arg2 (Pipeline.mem_restRefs_of main_arg2 (by decide) (by decide))).trans (W_main_arg2 m (dats m) c)⟩)
    (run_main m ρ)

end Cert.KernelIdeal.Body

end
-- ==== Proof.Spec.lean ====
/-
  The graph convolution as one function of its three argument arrays, entry by entry, over the extended reals.

  With features `x` (10000 × 128), weights `w` (128 × 32) and a dense adjacency `adj` (10000 × 10000), the layer is
  `relu (adj · (x · w))`: first every node's features are projected, `(x · w)[l, q] = Σ_k x[l, k] · w[k, q]`, then
  every node gathers the projections of all nodes with its adjacency row, `Σ_l adj[p, l] · (x · w)[l, q]`, and the
  result is clipped below at zero. The sums are nested exactly so on both sides of the claim (nothing is
  distributed or re-associated), which is why no finiteness of the inputs is needed.
-/
import Idealize.ShloMosaic.PureOps.Ideal
import Idealize.ShloMosaic.Lib.ValueIdx

noncomputable section

open scoped BigOperators

namespace Cert.Spec

open Idealize.ShloMosaic Idealize.ShloMosaic.ValueIdx

/-- The projected features of node `l` in output channel `q`: `Σ_k x[l, k] · w[k, q]`. -/
def projAt (x : FVec Ideal ⟨2, ![10000, 128]⟩ .f32) (w : FVec Ideal ⟨2, ![128, 32]⟩ .f32) (l : Fin 10000) (q : Fin 32) : Ideal .f32 :=
  ∑ k : Fin 128, x (ix2 l k) * w (ix2 k q)

/-- The layer's output for node `p` in channel `q`: the adjacency row of `p` against the projected features, clipped
    below at the value of the zero word. -/
def outAt (x : FVec Ideal ⟨2, ![10000, 128]⟩ .f32) (adj : FVec Ideal ⟨2, ![10000, 10000]⟩ .f32) (w : FVec Ideal ⟨2, ![128, 32]⟩ .f32)
    (p : Fin 10000) (q : Fin 32) : Ideal .f32 :=
  max (∑ l : Fin 10000, adj (ix2 p l) * projAt x w l q) (Ideal.ofBits .f32 0x00000000#32)

/-- The whole output array. -/
def G (x : FVec Ideal ⟨2, ![10000, 128]⟩ .f32) (adj : FVec Ideal ⟨2, ![10000, 10000]⟩ .f32) (w : FVec Ideal ⟨2, ![128, 32]⟩ .f32) :
    FVec Ideal ⟨2, ![10000, 32]⟩ .f32 :=
  fun j => outAt x adj w (j 0) (j 1)

theorem G_apply (x : FVec Ideal ⟨2, ![10000, 128]⟩ .f32) (adj : FVec Ideal ⟨2, ![10000, 10000]⟩ .f32) (w : FVec Ideal ⟨2, ![128, 32]⟩ .f32)
    (p : Fin 10000) (q : Fin 32) : G x adj w (ix2 p q) = outAt x adj w p q := rfl

end Cert.Spec

end
-- ==== Proof.LibDot.lean ====
/-
  A plain matrix product read at an entry, at the ideal values.

  Every product in the network is "rows by columns": an `M × K` array against a `K × N` array, contracting the one
  shared axis, no batch axis. At the ideal values both the kernel's product into a zero accumulator and the host's
  product are, at entry `(p, q)`, the sum over `k` of `lhs (p, k) · rhs (k, q)`: no rounding and no order of
  accumulation is left in it. The two lemmas say so once, for all sizes; a printed dimension record of this kind is
  `DotDims.plain M K N` up to its well-formedness proof.
-/
import Idealize.ShloMosaic.PureOps.Ideal.Laws
import Idealize.ShloMosaic.Lib.ValueIdx

noncomputable section

namespace Cert.GNN

open Idealize.ShloMosaic Idealize.ShloMosaic.ValueIdx

variable {M K N : ℕ}

theorem plain_lhs0 (i : (⟨2, ![M, N]⟩ : Shape).Idx) (κ : (DotDims.plain M K N).contr.Idx) :
    ((DotDims.plain M K N).lhsIdx i κ 0).val = (i 0).val := rfl
theorem plain_lhs1 (i : (⟨2, ![M, N]⟩ : Shape).Idx) (κ : (DotDims.plain M K N).contr.Idx) :
    ((DotDims.plain M K N).lhsIdx i κ 1).val = (κ ⟨0, Nat.one_pos⟩).val := rfl
theorem plain_rhs0 (i : (⟨2, ![M, N]⟩ : Shape).Idx) (κ : (DotDims.plain M K N).contr.Idx) :
    ((DotDims.plain M K N).rhsIdx i κ 0).val = (κ ⟨0, Nat.one_pos⟩).val := rfl
theorem plain_rhs1 (i : (⟨2, ![M, N]⟩ : Shape).Idx) (κ : (DotDims.plain M K N).contr.Idx) :
    ((DotDims.plain M K N).rhsIdx i κ 1).val = (i 1).val := rfl

/-- The sum over the contraction index of a plain product, re-indexed by `k : Fin K`. -/
theorem plain_sum {φ₁ φ₂ : FTy} (lhs : FVec Ideal ⟨2, ![M, K]⟩ φ₁) (rhs : FVec Ideal ⟨2, ![K, N]⟩ φ₂) (p : Fin M) (q : Fin N) :
    (∑ κ : (DotDims.plain M K N).contr.Idx,
        lhs ((DotDims.plain M K N).lhsIdx (ix2 p q) κ) * rhs ((DotDims.plain M K N).rhsIdx (ix2 p q) κ))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain product into the zero accumulator, read at entry `(p, q)`. -/
theorem matmul_plain_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's plain product, read at entry `(p, q)`. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

end Cert.GNN

end
-- ==== Proof.IdealValue.lean ====
/-
  The kernel's scratch arrays and output block, entry by entry, against the specification, at the ideal values.

  Three pure payloads make up the body. The first point's is the product of the features `x` (10000 × 128) with the
  host-transposed weights `wt` (32 × 128), both contracted on their last axis, into a zero accumulator: at `(l, q)` it
  is `Σ_k x[l, k] · wt[q, k]` (the narrowing of the format that follows is the identity on extended reals, and so are
  the casts to the same shape). A point's is the plain product of its 400 adjacency rows with the projected features,
  clipped below at the value of the zero word: at `(r, q)` it is `max (Σ_l a[r, l] · v[l, q]) 0₃₂`, the word kept as a
  word on both sides. The last point's is a transpose.

  Three blocks feed them. The features' window is the whole array, so its block is the array as launched; the weights'
  window is the whole array the host's transpose wrote, so its block at `(q, k)` is the weights at `(k, q)`; the
  adjacency's window is 400 rows by all columns at block index `(t, 0)`, so its block at `(r, l)` is the adjacency at
  `(400 t + r, l)`.

  Put together: the projected features are the specification's `projAt`, the slab of point `t` holds rows
  `400 t … 400 t + 399` of the specification's output, the accumulator after the last point is the whole output
  (`p = 400 (p / 400) + p % 400`), and the output block is its transpose. The sums are nested the same way on both
  sides, so nothing is re-associated and no finiteness is needed.
-/
import proofs.«119223_g89721866813830_cont_sun_m_1045_24_alg».proof.Proof.IdealContents
import proofs.«119223_g89721866813830_cont_sun_m_1045_24_alg».proof.Proof.Spec
import proofs.«119223_g89721866813830_cont_sun_m_1045_24_alg».proof.Proof.LibDot
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

noncomputable section

open scoped BigOperators

namespace Cert.KernelIdeal.BodyValue

open Idealize.ShloMosaic Idealize.ShloMosaic.ValueIdx Idealize.SL.Sem
open Cert.KernelIdeal Cert.KernelIdeal.Gen Cert.KernelIdeal.Body

/-! ## A product against a transposed right operand, read at an entry -/

section TransposedProduct
variable {M K N : ℕ}

theorem tr_lhs0 (i : (⟨2, ![M, N]⟩ : Shape).Idx) (κ : (DotDims.transposedRhs M K N).contr.Idx) :
    ((DotDims.transposedRhs M K N).lhsIdx i κ 0).val = (i 0).val := rfl
theorem tr_lhs1 (i : (⟨2, ![M, N]⟩ : Shape).Idx) (κ : (DotDims.transposedRhs M K N).contr.Idx) :
    ((DotDims.transposedRhs M K N).lhsIdx i κ 1).val = (κ ⟨0, Nat.one_pos⟩).val := rfl
theorem tr_rhs0 (i : (⟨2, ![M, N]⟩ : Shape).Idx) (κ : (DotDims.transposedRhs M K N).contr.Idx) :
    ((DotDims.transposedRhs M K N).rhsIdx i κ 0).val = (i 1).val := rfl
theorem tr_rhs1 (i : (⟨2, ![M, N]⟩ : Shape).Idx) (κ : (DotDims.transposedRhs M K N).contr.Idx) :
    ((DotDims.transposedRhs M K N).rhsIdx i κ 1).val = (κ ⟨0, Nat.one_pos⟩).val := rfl

/-- An `M × K` array against an `N × K` array, both contracted on their last axis, into a zero accumulator: entry
    `(p, q)` is the sum over `k` of `lhs (p, k) · rhs (q, k)`. -/
theorem matmul_transposedRhs_zero_apply {φ₁ φ₂ : FTy} (prec : Option ContractPrecision)
    (lhs : FVec Ideal ⟨2, ![M, K]⟩ φ₁) (rhs : FVec Ideal ⟨2, ![N, K]⟩ φ₂) (p : Fin M) (q : Fin N) :
    FloatOps.matmul (DotDims.transposedRhs M K N) prec lhs rhs (constant ⟨2, ![M, N]⟩ .f32 0x00000000#32) (ix2 p q)
      = ∑ k : Fin K, lhs (ix2 p k) * rhs (ix2 q k) := by
  rw [Ideal.matmul_constant_zero_apply,
    ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact tr_lhs0 _ _
      | ⟨1, _⟩ => exact (tr_lhs1 _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact tr_rhs0 _ _
      | ⟨1, _⟩ => exact (tr_rhs1 _ _).trans hk)
  rw [el, er]

end TransposedProduct

/-! ## The three payloads at an entry -/

/-- The first point's payload: the features against the transposed weights, entry by entry (the narrowing of the
    format and the casts to the same shape change nothing at the ideal values). -/
theorem pay1_apply (x0 : Vec Ideal S10000x128 .f32) (x1 : Vec Ideal S32x128 .f32) (l : Fin 10000) (q : Fin 32) :
    k0_pay1 (F := Ideal) x0 x1 (ix2 l q) = ∑ k : Fin 128, x0 (ix2 l k) * x1 (ix2 q k) := by
  unfold k0_pay1
  simp only [shapeCast_self, truncf_apply, matmul]
  exact matmul_transposedRhs_zero_apply (M := 10000) (K := 128) (N := 32) none x0 x1 l q

/-- A point's payload: its adjacency rows against the projected features, clipped below at the zero word's value. -/
theorem pay2_apply (a : Vec Ideal S400x10000 .f32) (v : Vec Ideal S10000x32 .bf16) (r : Fin 400) (q : Fin 32) :
    k0_pay2 (F := Ideal) a v (ix2 r q)
      = max (∑ l : Fin 10000, a (ix2 r l) * v (ix2 l q)) (Ideal.ofBits .f32 0x00000000#32) := by
  unfold k0_pay2
  simp only [shapeCast_self, maximumf_apply, broadcast_apply, matmul]
  congr 1
  exact Cert.GNN.matmul_plain_zero_apply (M := 400) (K := 10000) (N := 32) none a v r q

/-- The last point's payload: the transpose. -/
theorem pay3_apply (v : Vec Ideal S10000x32 .f32) (q : Fin 32) (p : Fin 10000) :
    k0_pay3 (F := Ideal) v (ix2 q p) = v (ix2 p q) := by
  unfold k0_pay3
  exact transpose_ix2_apply v _ q p

variable (m : (ℓ : Loc nD τ sig) → Buf (Elt Ideal) ℓ)

/-! ## The three input blocks at an entry -/

/-- The features' window is the whole array at block index `(0, 0)`: its block reads the array as launched. -/
theorem xblk_apply (c : Dev nD) (t : Fin cfg0.N) (l : Fin 10000) (k : Fin 128) :
    xblk (F := Ideal) m c t (ix2 l k) = m ((c.tc : Thread nD τ).loc main_arg0) (ix2 l k) := by
  have h0 : win0_0.index t 0 = 0 := rfl
  have h1 : win0_0.index t 1 = 0 := rfl
  unfold xblk iblk
  rw [View.read_apply]
  show V m c main_arg0 _ = m (c.tc.loc main_arg0) _
  rw [V_main_arg0]
  congr 1
  funext a
  apply Fin.ext
  match a with
  | ⟨0, _⟩ =>
    show win0_0.index t 0 * 10000 + 1 * l.val = l.val
    rw [h0]; omega
  | ⟨1, _⟩ =>
    show win0_0.index t 1 * 128 + 1 * k.val = k.val
    rw [h1]; omega

/-- The adjacency's window is 400 rows by all columns at block index `(t, 0)`: row `r` of the block of point `t` is
    row `400 t + r` of the array as launched. -/
theorem adjblk_apply (c : Dev nD) (t : Fin cfg0.N) (r : Fin 400) (l : Fin 10000) (h : 400 * t.val + r.val < 10000) :
    adjblk (F := Ideal) m c t (ix2 r l) = m ((c.tc : Thread nD τ).loc main_arg1) (ix2 (⟨400 * t.val + r.val, h⟩ : Fin 10000) l) := by
  have hi : win0_2.index t 0 = t.val ∧ win0_2.index t 1 = 0 :=
    (by decide +kernel : ∀ t : Fin grid0.N, win0_2.index t 0 = t.val ∧ win0_2.index t 1 = 0) t
  unfold adjblk iblk
  rw [View.read_apply]
  show V m c main_arg1 _ = m (c.tc.loc main_arg1) _
  rw [V_main_arg1]
  congr 1
  funext a
  apply Fin.ext
  match a with
  | ⟨0, _⟩ =>
    show win0_2.index t 0 * 400 + 1 * r.val = 400 * t.val + r.val
    rw [hi.1]; omega
  | ⟨1, _⟩ =>
    show win0_2.index t 1 * 10000 + 1 * l.val = l.val
    rw [hi.2]; omega

/-- The weights' window is the whole host-transposed array at block index `(0, 0)`: entry `(q, k)` of its block is
    entry `(k, q)` of the weights as launched. -/
theorem wtblk_apply (c : Dev nD) (t : Fin cfg0.N) (q : Fin 32) (k : Fin 128) :
    wtblk (F := Ideal) m c t (ix2 q k) = m ((c.tc : Thread nD τ).loc main_arg2) (ix2 k q) := by
  have h0 : win0_1.index t 0 = 0 := rfl
  have h1 : win0_1.index t 1 = 0 := rfl
  have hV : V m c main_v0 (ix2 q k) = m ((c.tc : Thread nD τ).loc main_arg2) (ix2 k q) := by
    show StableHlo.after hostOps0 (fun b => m (c, b)) (Proc.devRef .tc main_v0) (ix2 q k) = _
    after_results
    exact transpose_ix2_apply _ _ q k
  rw [← hV]
  unfold wtblk iblk
  rw [View.read_apply]
  show V m c main_v0 _ = V m c main_v0 _
  congr 1
  funext a
  apply Fin.ext
  match a with
  | ⟨0, _⟩ =>
    show win0_1.index t 0 * 32 + 1 * q.val = q.val
    rw [h0]; omega
  | ⟨1, _⟩ =>
    show win0_1.index t 1 * 128 + 1 * k.val = k.val
    rw [h1]; omega

/-! ## The scratch arrays and the output block against the specification -/

/-- The projected features the first point keeps are the specification's, entry by entry. -/
theorem xw_apply (c : Dev nD) (l : Fin 10000) (q : Fin 32) :
    xw (F := Ideal) m c (ix2 l q)
      = Cert.Spec.projAt (m ((c.tc : Thread nD τ).loc main_arg0)) (m ((c.tc : Thread nD τ).loc main_arg2)) l q := by
  unfold xw Cert.Spec.projAt
  rw [pay1_apply]
  refine Finset.sum_congr rfl fun k _ => ?_
  rw [xblk_apply, wtblk_apply]

/-- Row `r` of the slab of point `t` is row `400 t + r` of the specification's output. -/
theorem slab_apply (c : Dev nD) (t : Fin cfg0.N) (r : Fin 400) (q : Fin 32) (h : 400 * t.val + r.val < 10000) :
    slab (F := Ideal) m c t (ix2 r q)
      = Cert.Spec.outAt (m ((c.tc : Thread nD τ).loc main_arg0)) (m ((c.tc : Thread nD τ).loc main_arg1))
          (m ((c.tc : Thread nD τ).loc main_arg2)) ⟨400 * t.val + r.val, h⟩ q := by
  unfold slab Cert.Spec.outAt
  rw [pay2_apply]
  congr 1
  refine Finset.sum_congr rfl fun l _ => ?_
  rw [adjblk_apply m c t r l h, xw_apply]

/-- So the accumulator after the last point is the specification's output array: row `p` lies in the slab of point
    `p / 400` at row `p % 400`, and `400 (p / 400) + p % 400 = p`. -/
theorem acc_is_spec (c : Dev nD) :
    acc (F := Ideal) m c
      = Cert.Spec.G (m ((c.tc : Thread nD τ).loc main_arg0)) (m ((c.tc : Thread nD τ).loc main_arg1))
          (m ((c.tc : Thread nD τ).loc main_arg2)) := by
  funext y
  obtain ⟨p, q, rfl⟩ : ∃ (p : Fin 10000) (q : Fin 32), y = ix2 p q := ⟨y 0, y 1, eq_ix2 y⟩
  rw [Cert.Spec.G_apply]
  have hp := p.isLt
  have hdiv : p.val / 400 < cfg0.N := by rw [N_eq]; omega
  have hmod : p.val % 400 < 400 := Nat.mod_lt _ (by omega)
  have hrow : 400 * (p.val / 400) + p.val % 400 < 10000 := by rw [Nat.div_add_mod]; exact hp
  show slab m c ⟨p.val / 400, hdiv⟩ (ix2 (⟨p.val % 400, hmod⟩ : Fin 400) q) = _
  refine (slab_apply m c ⟨p.val / 400, hdiv⟩ ⟨p.val % 400, hmod⟩ q hrow).trans ?_
  congr 1
  exact Fin.ext (Nat.div_add_mod _ _)

/-- The output block is the accumulator transposed. -/
theorem outT_apply (c : Dev nD) (q : Fin 32) (p : Fin 10000) :
    outT (F := Ideal) m c (ix2 q p) = acc (F := Ideal) m c (ix2 p q) := by
  unfold outT
  exact pay3_apply _ q p

end Cert.KernelIdeal.BodyValue

end
-- ==== Proof.RefValue.lean ====
/-
  The reference's result is the specification: read one host operation at a time, its two matrix products are
  the nested sums of `Cert.Spec.outAt` and its final `maximum` against the broadcast zero is the clip at zero.
-/
import proofs.«119223_g89721866813830_cont_sun_m_1045_24_alg».proof.Proof.Gen.ReferenceIdeal.Read
import proofs.«119223_g89721866813830_cont_sun_m_1045_24_alg».proof.Proof.Spec

noncomputable section

namespace Cert.RefValue

open Idealize.ShloMosaic Idealize.ShloMosaic.ValueIdx Cert.ReferenceIdeal Cert.ReferenceIdeal.Read

/-- In the first product, entry `(p, q)` pairs `x[p, k]` with `w[k, q]`. -/
theorem lidx0 (p : Fin 10000) (q : Fin 32) (k : Fin 128) : lidx_main_v0 (ix2 p q) k = ix2 p k :=
  funext fun a => Fin.ext (by match a with | ⟨0, _⟩ => rfl | ⟨1, _⟩ => rfl)
theorem ridx0 (p : Fin 10000) (q : Fin 32) (k : Fin 128) : ridx_main_v0 (ix2 p q) k = ix2 k q :=
  funext fun a => Fin.ext (by match a with | ⟨0, _⟩ => rfl | ⟨1, _⟩ => rfl)
/-- In the second, entry `(p, q)` pairs `adj[p, l]` with the first product's `[l, q]`. -/
theorem lidx1 (p : Fin 10000) (q : Fin 32) (l : Fin 10000) : lidx_main_v1 (ix2 p q) l = ix2 p l :=
  funext fun a => Fin.ext (by match a with | ⟨0, _⟩ => rfl | ⟨1, _⟩ => rfl)
theorem ridx1 (p : Fin 10000) (q : Fin 32) (l : Fin 10000) : ridx_main_v1 (ix2 p q) l = ix2 l q :=
  funext fun a => Fin.ext (by match a with | ⟨0, _⟩ => rfl | ⟨1, _⟩ => rfl)

/-- The reference's last stage, as a function of the three arguments, is the specification. -/
theorem ref_is_spec (x0 : (⟨S10000x128, .f32⟩ : BufTy).Contents (Elt Ideal)) (x1 : (⟨S10000x10000, .f32⟩ : BufTy).Contents (Elt Ideal))
    (x2 : (⟨S128x32, .f32⟩ : BufTy).Contents (Elt Ideal)) :
    val_main_v2 (F := Ideal) x0 x1 x2 = Cert.Spec.G x0 x1 x2 := by
  funext i
  obtain ⟨p, q, rfl⟩ : ∃ (p : Fin 10000) (q : Fin 32), i = ix2 p q := ⟨i 0, i 1, eq_ix2 i⟩
  rw [val_main_v2_apply, val_main_v1_apply, val_main_call0_v0_apply, val_main_call0_cst_apply, Cert.Spec.G_apply]
  unfold Cert.Spec.outAt Cert.Spec.projAt
  simp only [val_main_v0_apply, lidx0, ridx0, lidx1, ridx1, Ideal.maximumf_def, Ideal.ofBits_def]

end Cert.RefValue

end
-- ==== Proof.lean ====
/-
  A dense graph-convolution layer, `relu (adj · (x · w))`, as a fused kernel against its plain reference.

  The reference multiplies the 10000 × 128 features by the 128 × 32 weights, multiplies the 10000 × 10000 adjacency
  by the result, and clips at zero. The kernel does the same in a different arrangement: the host hands it the
  weights transposed; on a grid of 25 points it computes the projected features once, at the first point, into a
  scratch array (narrowing their format, which changes nothing over the extended reals), then at each point the
  400 output rows that the point's 400 adjacency rows give, clipped at zero, into those rows of an accumulator;
  at the last point it writes the accumulator transposed into its output block, and the host transposes it back.
  Entry `(p, q)` of both results is `max (Σ_l adj[p, l] · Σ_k x[l, k] · w[k, q]) 0`, the sums nested the same way,
  so the two agree on all extended reals and the inputs' finiteness is never used.

  The frames: the kernel keeps between points the projected features and an accumulator of which the rows of the
  points already run are known; the rows still to come hold what the buffer held at entry and are overwritten
  before anything reads them. That one argument is written once for any float instance and serves the word-level
  program and its idealization alike (the idealization rewrote no operation, so `preserves` asks nothing). The
  reference has no kernel: its frame is its run with the result dropped.
-/
import proofs.«119223_g89721866813830_cont_sun_m_1045_24_alg».proof.Defs
import proofs.«119223_g89721866813830_cont_sun_m_1045_24_alg».proof.Proof.Gen.Kernel
import proofs.«119223_g89721866813830_cont_sun_m_1045_24_alg».proof.Proof.Gen.KernelIdeal
import proofs.«119223_g89721866813830_cont_sun_m_1045_24_alg».proof.Proof.Gen.ReferenceIdeal
import proofs.«119223_g89721866813830_cont_sun_m_1045_24_alg».proof.Proof.Gen.Pre_finite_inputs
import proofs.«119223_g89721866813830_cont_sun_m_1045_24_alg».proof.Proof.Gen.ReferenceIdeal.Run
import proofs.«119223_g89721866813830_cont_sun_m_1045_24_alg».proof.Proof.Gen.ReferenceIdeal.Read
import proofs.«119223_g89721866813830_cont_sun_m_1045_24_alg».proof.Proof.BitsBody
import proofs.«119223_g89721866813830_cont_sun_m_1045_24_alg».proof.Proof.IdealFinal
import proofs.«119223_g89721866813830_cont_sun_m_1045_24_alg».proof.Proof.IdealValue
import proofs.«119223_g89721866813830_cont_sun_m_1045_24_alg».proof.Proof.RefValue
import Idealize.ShloMosaic.Lib.ValueLayout
import Idealize.ShloMosaic.Adequacy
import Idealize.ShloMosaic.Init

noncomputable section

namespace Cert.Proof

open Idealize.ShloMosaic Idealize.ShloMosaic.ValueIdx Idealize.SL.Sem

/-- The kernel's result at the ideal values: the accumulator, transposed into the output block and back, is the
    specification of the arguments as launched. -/
theorem kernel_value (m : (ℓ : Loc Cert.KernelIdeal.nD Cert.KernelIdeal.τ Cert.KernelIdeal.sig) → Buf (Elt Ideal) ℓ) (c : Dev Cert.KernelIdeal.nD) :
    transpose Cert.KernelIdeal.S10000x32 [1, 0] (Cert.KernelIdeal.Body.outT (F := Ideal) m c) Cert.KernelIdeal.Facts₀.transposes_S32x10000_S10000x32_1_0
      = Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) := by
  funext i
  obtain ⟨p, q, rfl⟩ : ∃ (p : Fin 10000) (q : Fin 32), i = ix2 p q := ⟨i 0, i 1, eq_ix2 i⟩
  rw [transpose_ix2_apply, Cert.KernelIdeal.BodyValue.outT_apply, Cert.KernelIdeal.BodyValue.acc_is_spec]

theorem frame_k : Cert.frame_Kernel := fun m ρ _ => Cert.Kernel.Body.frame (F := Bits) m ρ

theorem frame_ki : Cert.frame_KernelIdeal := fun m ρ _ => Cert.KernelIdeal.Body.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

/-- Both programs, run from memories that agree on the arguments, end with the specification of those arguments
    in their result arrays. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)), ?_, ?_⟩
  · exact (θ_run Cert.KernelIdeal.defs _ _).mono (fun _ h c => ⟨(h c).1.trans (kernel_value m c), (h c).2⟩)
      (Cert.KernelIdeal.Body.run_value (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v2_eq, Cert.RefValue.ref_is_spec, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
